-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x32x32 : Shape := ⟨4, ![16, 1024, 32, 32]⟩
abbrev S1024x1024 : Shape := ⟨2, ![1024, 1024]⟩
abbrev S2048x1024 : Shape := ⟨2, ![2048, 1024]⟩
abbrev S_ : Shape := ⟨0, ![]⟩

class Facts : Prop where
  bcast_S_S16x1024x32x32 : S_.BroadcastsInDim S16x1024x32x32 (![] : Fin 0 → Fin S16x1024x32x32.rank)
  reducesTo_S16x1024x32x32_S_d0_1_2_3 : S16x1024x32x32.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S16x1024x32x32 .f32) (main_arg1 : FVec F S16x1024x32x32 .f32) (main_arg2 : FVec F S1024x1024 .f32) (main_arg3 : FVec F S2048x1024 .f32) : IVec S_ 1 :=
  let main_v0 : FVec F S16x1024x32x32 .f32 := Host.absf main_arg0
  let main_cst : FVec F S_ .f32 := constant S_ .f32 0x7F800000#32
  let main_v1 : FVec F S16x1024x32x32 .f32 := broadcastInDim S16x1024x32x32 ![] bcast_S_S16x1024x32x32 main_cst
  let main_v2 : IVec S16x1024x32x32 1 := cmpf .olt main_v0 main_v1
  let main_c : IVec S_ 1 := constantI S_ 1 1#1
  let main_v3 : IVec S_ 1 := (fun x v => Host.reduce IntOp.andi x v reducesTo_S16x1024x32x32_S_d0_1_2_3 h_S_) main_v2 main_c
  let main_v4 : FVec F S16x1024x32x32 .f32 := Host.absf main_arg1
  let main_cst_0 : FVec F S_ .f32 := constant S_ .f32 0x7F800000#32
  let main_v5 : FVec F S16x1024x32x32 .f32 := broadcastInDim S16x1024x32x32 ![] bcast_S_S16x1024x32x32 main_cst_0
  let main_v6 : IVec S16x1024x32x32 1 := cmpf .olt main_v4 main_v5
  let main_c_1 : IVec S_ 1 := constantI S_ 1 1#1
  let main_v7 : IVec S_ 1 := (fun x v => Host.reduce IntOp.andi x v reducesTo_S16x1024x32x32_S_d0_1_2_3 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Kernel.lean ====
abbrev S16x1024x32x32 : Shape := ⟨4, ![16, 1024, 32, 32]⟩
abbrev S1024x1024 : Shape := ⟨2, ![1024, 1024]⟩
abbrev S2048x1024 : Shape := ⟨2, ![2048, 1024]⟩
abbrev S16x1024x1024 : Shape := ⟨3, ![16, 1024, 1024]⟩
abbrev S_ : Shape := ⟨0, ![]⟩
abbrev S1x512x1024 : Shape := ⟨3, ![1, 512, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 11
  | .smem => 0
  | _ => 0

abbrev bufTy : (tb : Table) → Fin (tcTables nBuf tb) → BufTy
  | .hbm, ⟨0, _⟩ => ⟨S16x1024x32x32, .f32⟩
  | .hbm, ⟨1, _⟩ => ⟨S16x1024x32x32, .f32⟩
  | .hbm, ⟨2, _⟩ => ⟨S1024x1024, .f32⟩
  | .hbm, ⟨3, _⟩ => ⟨S2048x1024, .f32⟩
  | .hbm, ⟨4, _⟩ => ⟨S16x1024x1024, .f32⟩
  | .hbm, ⟨5, _⟩ => ⟨S16x1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S16x1024x1024, .f32⟩
  | .hbm, ⟨18, _⟩ => ⟨S16x1024x32x32, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1024x1024, .bf16⟩
  | .local _ .vmem, ⟨10, _⟩ => ⟨S1024x1024, .bf16⟩
  | _, _ => ⟨S16x1024x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S16x1024x32x32_S16x1024x1024 : S16x1024x32x32.ShapeCasts S16x1024x1024
  slices_S2048x1024_S1024x1024_0_0 : S2048x1024.Slices ![0, 0] S1024x1024
  slices_S2048x1024_S1024x1024_1024_0 : S2048x1024.Slices ![1024, 0] S1024x1024
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  inb_S1x1024x1024_S1x512x1024_0_0_0 : ∀ a, (![0, 0, 0] : Fin 3 → Nat) a + S1x512x1024.size a ≤ S1x1024x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1024_S512x1024_0_0 : ∀ a, (![0, 0] : Fin 2 → Nat) a + S512x1024.size a ≤ S1024x1024.size a
  h_S512x1024 : 0 < S512x1024.numel
  shapeCasts_S512x1024_S512x1024 : S512x1024.ShapeCasts S512x1024
  packedbf16_S1024x1024_S512x1024_0_0 : (Rect.unit (s := S1024x1024) ![0, 0] S512x1024.size inb_S1024x1024_S512x1024_0_0).PackedRows (EltTy.packing .bf16)
  inb_S1x1024x1024_S1x512x1024_0_512_0 : ∀ a, (![0, 512, 0] : Fin 3 → Nat) a + S1x512x1024.size a ≤ S1x1024x1024.size a
  inb_S1024x1024_S512x1024_512_0 : ∀ a, (![512, 0] : Fin 2 → Nat) a + S512x1024.size a ≤ S1024x1024.size a
  packedbf16_S1024x1024_S512x1024_512_0 : (Rect.unit (s := S1024x1024) ![512, 0] S512x1024.size inb_S1024x1024_S512x1024_512_0).PackedRows (EltTy.packing .bf16)
  inb_S1x512x1024_S1x512x1024_0_0_0 : ∀ a, (![0, 0, 0] : Fin 3 → Nat) a + S1x512x1024.size a ≤ S1x512x1024.size a
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  shapeCasts_S16x1024x1024_S16x1024x32x32 : S16x1024x1024.ShapeCasts S16x1024x32x32
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S16x1024x1024.size a
  hwx0_5 : ∀ i : grid0.Coords, EltTy.bits .f32 = 32 ∨ (Rect.block (s := S16x1024x1024) S1x512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x32x32 : Shape := ⟨4, ![16, 1024, 32, 32]⟩
abbrev S1024x1024 : Shape := ⟨2, ![1024, 1024]⟩
abbrev S2048x1024 : Shape := ⟨2, ![2048, 1024]⟩
abbrev S16x1024x1024 : Shape := ⟨3, ![16, 1024, 1024]⟩
abbrev S16x1024x2048 : Shape := ⟨3, ![16, 1024, 2048]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x1024x32x32, .f32⟩
  | .hbm, ⟨1, _⟩ => ⟨S16x1024x32x32, .f32⟩
  | .hbm, ⟨2, _⟩ => ⟨S1024x1024, .f32⟩
  | .hbm, ⟨3, _⟩ => ⟨S2048x1024, .f32⟩
  | .hbm, ⟨4, _⟩ => ⟨S16x1024x1024, .f32⟩
  | .hbm, ⟨5, _⟩ => ⟨S16x1024x1024, .f32⟩
  | .hbm, ⟨6, _⟩ => ⟨S16x1024x1024, .f32⟩
  | .hbm, ⟨7, _⟩ => ⟨S16x1024x2048, .f32⟩
  | .hbm, ⟨8, _⟩ => ⟨S16x1024x1024, .f32⟩
  | .hbm, ⟨9, _⟩ => ⟨S16x1024x1024, .f32⟩
  | .hbm, ⟨10, _⟩ => ⟨S16x1024x1024, .f32⟩
  | .hbm, ⟨11, _⟩ => ⟨S_, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024, .f32⟩
  | .hbm, ⟨16, _⟩ => ⟨S_, .f32⟩
  | .hbm, ⟨17, _⟩ => ⟨S16x1024, .f32⟩
  | .hbm, ⟨18, _⟩ => ⟨S16x1024, .f32⟩
  | .hbm, ⟨19, _⟩ => ⟨S16x1024x1, .f32⟩
  | .hbm, ⟨20, _⟩ => ⟨S16x1024x1024, .f32⟩
  | .hbm, ⟨21, _⟩ => ⟨S16x1024x1024, .f32⟩
  | .hbm, ⟨22, _⟩ => ⟨S16x1024x1024, .f32⟩
  | .hbm, ⟨23, _⟩ => ⟨S_, .f32⟩
  | .hbm, ⟨24, _⟩ => ⟨S16x1024, .f32⟩
  | .hbm, ⟨25, _⟩ => ⟨S16x1024x1, .f32⟩
  | .hbm, ⟨26, _⟩ => ⟨S16x1024x1024, .f32⟩
  | .hbm, ⟨27, _⟩ => ⟨S16x1024x1024, .f32⟩
  | .hbm, ⟨28, _⟩ => ⟨S16x1024x1024, .f32⟩
  | .hbm, ⟨29, _⟩ => ⟨S16x1024x32x32, .f32⟩
  | _, _ => ⟨S16x1024x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  shapeCasts_S16x1024x32x32_S16x1024x1024 : S16x1024x32x32.ShapeCasts S16x1024x1024
  slices_S16x1024x2048_S16x1024x1024_0_0_0 : S16x1024x2048.Slices ![0, 0, 0] S16x1024x1024
  slices_S16x1024x2048_S16x1024x1024_0_0_1024 : S16x1024x2048.Slices ![0, 0, 1024] S16x1024x1024
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  shapeCasts_S16x1024x1024_S16x1024x32x32 : S16x1024x1024.ShapeCasts S16x1024x32x32
  dot_S16x1024x1024_S1024x1024_S16x1024x1024_2_1_01_0_n_n_wf : DotDims.WF S16x1024x1024 S1024x1024 S16x1024x1024 [2] [1] [0, 1] [0] [] []
  dot_S16x1024x1024_S2048x1024_S16x1024x2048_2_1_01_0_n_n_wf : DotDims.WF S16x1024x1024 S2048x1024 S16x1024x2048 [2] [1] [0, 1] [0] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S2048x1024_S16x1024x2048_2_1_01_0_n_n : DotDims S16x1024x1024 S2048x1024 S16x1024x2048 where
  lhsContracting := [2]
  rhsContracting := [1]
  lhsNonContracting := [0, 1]
  rhsNonContracting := [0]
  lhsBatch := []
  rhsBatch := []
  wf := dot_S16x1024x1024_S2048x1024_S16x1024x2048_2_1_01_0_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.AttentionSpec.lean ====
/-
  What the fused kernel computes, as ONE function of its arrays, index by index.

  With `xf`, `cf : [16, 1024, 1024]` the two images flattened to (batch, token, feature), `wq : [1024, 1024]` and
  `wkv : [2048, 1024]` the weights as (output feature, input feature), entry (b, i, o) of the result is

      softmaxRow (fun j => score b i j) (fun j => value b j o)

  where, over the extended reals,
      query b i o' = ∑ d, xf (b, i, d) * (wq (o', d) * scale)          (the softmax scale folded into the weight)
      key   b j o' = ∑ d, cf (b, j, d) * wkv (o', d)                    (the first 1024 rows of wkv)
      value b j o  = ∑ d, cf (b, j, d) * wkv (1024 + o, d)              (the last 1024 rows of wkv)
      score b i j  = ∑ o', query b i o' * key b j o'
  and `softmaxRow a v` is the row's weighted sum of `v` with the weights `exp (a j - max a)`, divided ONCE by the sum
  of the weights.
-/
import Idealize.ShloMosaic.PureOps.Ideal
import Idealize.ShloMosaic.Lib.ValueIdx
import Mathlib.Data.Finset.Fold

noncomputable section

open scoped BigOperators
open Idealize.ShloMosaic Idealize.ShloMosaic.ValueIdx

namespace Cert.AttentionSpec

/-- (batch, token, feature). -/
abbrev A3 : Shape := ⟨3, ![16, 1024, 1024]⟩
/-- A square weight, or one batch's keys or values: (row, column). -/
abbrev A2 : Shape := ⟨2, ![1024, 1024]⟩
/-- The stacked key and value weights. -/
abbrev B2 : Shape := ⟨2, ![2048, 1024]⟩

/-- The softmax scale `1024^(-1/2) = 1/32`, as the f32 word both programs carry. -/
def scale : EReal := Ideal.ofBits .f32 0x3D000000#32
/-- The word the row maximum starts from (f32's `-∞`). -/
def negInf : EReal := Ideal.ofBits .f32 0xFF800000#32

/-- One attention row: the scores `a` over the keys, the value column `v` over the keys. -/
def softmaxRow (a v : Fin 1024 → EReal) : EReal :=
  Ideal.div (∑ j : Fin 1024, Ideal.exp (a j - (Finset.univ : Finset (Fin 1024)).fold max negInf a) * v j)
    (∑ j : Fin 1024, Ideal.exp (a j - (Finset.univ : Finset (Fin 1024)).fold max negInf a))

/-- Row `o` of the value half of the stacked weight. -/
abbrev hi (o : Fin 1024) : Fin 2048 := ⟨1024 + o.val, by omega⟩
/-- Row `o` of the key half of the stacked weight. -/
abbrev lo (o : Fin 1024) : Fin 2048 := ⟨o.val, by omega⟩

section
variable (xf cf : A3.Idx → EReal) (wq : A2.Idx → EReal) (wkv : B2.Idx → EReal)

def query (b : Fin 16) (i o : Fin 1024) : EReal := ∑ d : Fin 1024, xf (ix3 b i d) * (wq (ix2 o d) * scale)
def key (b : Fin 16) (j o : Fin 1024) : EReal := ∑ d : Fin 1024, cf (ix3 b j d) * wkv (ix2 (lo o) d)
def value (b : Fin 16) (j o : Fin 1024) : EReal := ∑ d : Fin 1024, cf (ix3 b j d) * wkv (ix2 (hi o) d)
def score (b : Fin 16) (i j : Fin 1024) : EReal := ∑ o : Fin 1024, query xf wq b i o * key cf wkv b j o

/-- The attention output, (batch, token, feature). -/
def attention : A3.Idx → EReal := fun idx =>
  softmaxRow (fun j => score xf cf wq wkv (idx 0) (idx 1) j) (fun j => value cf wkv (idx 0) j (idx 2))

end

end Cert.AttentionSpec

end
-- ==== Proof.KernelPayload.lean ====
/-
  The kernel body's arithmetic read at an index, at the ideal instance: floats are extended reals, every format
  change is the identity, and a contraction into a zero accumulator is a plain sum over the contracted coordinate.

  Each projection payload at (r, o) is the row r of its block times the column o of its weight; the output payload
  at (0, r, o) is one softmax row: the scores of row r against every key, the exponentials of their distances to the
  row maximum weighting the value column o, divided once by the sum of the weights.
-/
import proofs.«427656_j51634096832973_3_alg».proof.Proof.Gen.KernelIdeal.Skeleton
import proofs.«427656_j51634096832973_3_alg».proof.Proof.AttentionSpec
import Idealize.ShloMosaic.PureOps.Ideal.Laws
import Idealize.ShloMosaic.Lib.ValueIdx
import Idealize.ShloMosaic.Lib.Pipeline.Value
import Idealize.ShloMosaic.Lib.ValueLayout

noncomputable section

open scoped BigOperators
open Idealize.ShloMosaic Idealize.ShloMosaic.ValueIdx

namespace Cert.KernelPayload
open Cert.AttentionSpec Cert.KernelIdeal Cert.KernelIdeal.Gen

/-! ## The two contractions read at an index

The first contracts the columns of the left operand with the rows of the right one (rows × columns, the plain
product); the second contracts the columns of both (rows × rows: the right operand is read transposed). -/

/-- Plain product: the left operand's row coordinate is the output's row. -/
theorem lhs_plain_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- Plain product: the left operand's column coordinate is the contracted one. -/
theorem lhs_plain_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- Plain product: the right operand's row coordinate is the contracted one. -/
theorem rhs_plain_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- Plain product: the right operand's column coordinate is the output's column. -/
theorem rhs_plain_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The plain product into a zero accumulator, at (r, o): row r of the left operand times column o of the right. -/
theorem matmul_plain_apply (a : FVec Ideal S512x1024 .bf16) (b : FVec Ideal S1024x1024 .bf16) (r : Fin 512) (o : Fin 1024) :
    matmul dot_S512x1024_S1024x1024_S512x1024_1_0_0_1_n_n none a b (constant (F := Ideal) S512x1024 .f32 0x00000000#32) (ix2 r o)
      = ∑ d : Fin 1024, a (ix2 r d) * b (ix2 d o) := by
  refine (Ideal.matmul_constant_zero_apply dot_S512x1024_S1024x1024_S512x1024_1_0_0_1_n_n none a b (ix2 r o)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r o) ((ValueIdx.contrEquiv1 dot_S512x1024_S1024x1024_S512x1024_1_0_0_1_n_n 1024 rfl rfl).symm k) = ix2 r k := funext fun ax => Fin.ext (by
    match ax with
    | ⟨0, _⟩ => exact lhs_plain_0 _ _
    | ⟨1, _⟩ => exact (lhs_plain_1 _ _).trans hk)
  have er : dot_S512x1024_S1024x1024_S512x1024_1_0_0_1_n_n.rhsIdx (ix2 r o) ((ValueIdx.contrEquiv1 dot_S512x1024_S1024x1024_S512x1024_1_0_0_1_n_n 1024 rfl rfl).symm k) = ix2 k o := funext fun ax => Fin.ext (by
    match ax with
    | ⟨0, _⟩ => exact (rhs_plain_0 _ _).trans hk
    | ⟨1, _⟩ => exact rhs_plain_1 _ _)
  rw [el, er]

/-- Transposed product: the left operand's row coordinate is the output's row. -/
theorem lhs_transposed_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- Transposed product: the left operand's column coordinate is the contracted one. -/
theorem lhs_transposed_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- Transposed product: the right operand's row coordinate is the output's column. -/
theorem rhs_transposed_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- Transposed product: the right operand's column coordinate is the contracted one. -/
theorem rhs_transposed_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The transposed product into a zero accumulator, at (r, o): row r of the left operand times ROW o of the right. -/
theorem matmul_transposed_apply (a : FVec Ideal S512x1024 .bf16) (b : FVec Ideal S1024x1024 .bf16) (r : Fin 512) (o : Fin 1024) :
    matmul dot_S512x1024_S1024x1024_S512x1024_1_1_0_0_n_n none a b (constant (F := Ideal) S512x1024 .f32 0x00000000#32) (ix2 r o)
      = ∑ d : Fin 1024, a (ix2 r d) * b (ix2 o d) := by
  refine (Ideal.matmul_constant_zero_apply dot_S512x1024_S1024x1024_S512x1024_1_1_0_0_n_n none a b (ix2 r o)).trans ?_
  rw [← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r o) ((ValueIdx.contrEquiv1 dot_S512x1024_S1024x1024_S512x1024_1_1_0_0_n_n 1024 rfl rfl).symm k) = ix2 r k := funext fun ax => Fin.ext (by
    match ax with
    | ⟨0, _⟩ => exact lhs_transposed_0 _ _
    | ⟨1, _⟩ => exact (lhs_transposed_1 _ _).trans hk)
  have er : dot_S512x1024_S1024x1024_S512x1024_1_1_0_0_n_n.rhsIdx (ix2 r o) ((ValueIdx.contrEquiv1 dot_S512x1024_S1024x1024_S512x1024_1_1_0_0_n_n 1024 rfl rfl).symm k) = ix2 o k := funext fun ax => Fin.ext (by
    match ax with
    | ⟨0, _⟩ => exact rhs_transposed_0 _ _
    | ⟨1, _⟩ => exact (rhs_transposed_1 _ _).trans hk)
  rw [el, er]

/-! ## Layout operations at the kernel's shapes -/

section Layout
variable {α : Type}

/-- A cast between equal shapes reads through. -/
theorem shapeCast_same_apply {s : Shape} (v : s.Idx → α) (h : s.ShapeCasts s) (i : s.Idx) : shapeCast s v h i = v i :=
  congrFun (shapeCast_self v h) i

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two row reductions -/

/-- Row `r` of the block with column `k` put back: the index (r, k). -/
theorem lift_row (h : S512x1024.Reduces [1] S512) (r : Fin 512) (k : Fin 1024) : h.lift (ix1 r) k = ix2 r k :=
  funext fun ax => Fin.ext (by
    match ax with
    | ⟨0, _⟩ => rfl
    | ⟨1, _⟩ => rfl)

/-- The row maximum, from f32's minus infinity, at row `r`: the fold of `max` over the row's entries. -/
theorem rowMax_apply (s : FVec Ideal S512x1024 .f32) (h : S512x1024.Reduces [1] S512) (hφ : FKind.Formats .f32)
    (hacc : (0xFF800000#32 : BitVec 32) = FKind.maximumf.neutral .f32 hφ) (r : Fin 512) :
    multiReduction (F := Ideal) .maximumf [1] S512 s 0xFF800000#32 h hφ hacc (ix1 r)
      = (Finset.univ : Finset (Fin 1024)).fold max negInf (fun k => s (ix2 r k)) := by
  refine (Ideal.multiReduction_maximumf_single s _ h hφ hacc (ix1 r)).trans ?_
  have hf : (s ∘ h.lift (ix1 r)) = fun k : Fin 1024 => s (ix2 r k) := funext fun k => congrArg s (lift_row h r k)
  rw [hf]
  rfl

/-- The row sum at row `r`: the sum of the row's entries. -/
theorem rowSum_apply (s : FVec Ideal S512x1024 .f32) (h : S512x1024.Reduces [1] S512) (hφ : FKind.Formats .f32)
    (hacc : (0x00000000#32 : BitVec 32) = FKind.add.neutral .f32 hφ) (r : Fin 512) :
    multiReduction (F := Ideal) .add [1] S512 s 0x00000000#32 h hφ hacc (ix1 r) = ∑ k : Fin 1024, s (ix2 r k) := by
  refine (Ideal.multiReduction_add_single s _ h hφ hacc (ix1 r)).trans ?_
  exact Finset.sum_congr rfl fun k _ => congrArg s (lift_row h r k)

/-! ## The stages of the body -/

/-- A projection: the f32 block, its unit axis dropped, times a weight, into a zero accumulator. -/
def project (x : FVec Ideal S1x512x1024 .f32) (w : FVec Ideal S1024x1024 .bf16) : FVec Ideal S512x1024 .f32 :=
  matmul dot_S512x1024_S1024x1024_S512x1024_1_0_0_1_n_n none
    (truncf .bf16 (shapeCast S512x1024 x shapeCasts_S1x512x1024_S512x1024) bitsLt_bf16_f32)
    (shapeCast S1024x1024 w shapeCasts_S1024x1024_S1024x1024 : FVec Ideal S1024x1024 .bf16)
    (constant (F := Ideal) S512x1024 .f32 0x00000000#32)

/-- At (r, o) a projection is row r of the block times column o of the weight. -/
theorem project_apply (x : FVec Ideal S1x512x1024 .f32) (w : FVec Ideal S1024x1024 .bf16) (r : Fin 512) (o : Fin 1024) :
    project x w (ix2 r o) = ∑ d : Fin 1024, x (ix3 (0 : Fin 1) r d) * w (ix2 d o) := by
  unfold project
  refine (matmul_plain_apply _ _ r o).trans ?_
  refine Finset.sum_congr rfl fun d _ => ?_
  have e1 : truncf .bf16 (shapeCast S512x1024 x shapeCasts_S1x512x1024_S512x1024) bitsLt_bf16_f32 (ix2 r d) = x (ix3 (0 : Fin 1) r d) :=
    shapeCast_1ab_ab_apply x shapeCasts_S1x512x1024_S512x1024 r d
  have e2 : (shapeCast S1024x1024 w shapeCasts_S1024x1024_S1024x1024 : FVec Ideal S1024x1024 .bf16) (ix2 d o) = w (ix2 d o) :=
    shapeCast_same_apply w shapeCasts_S1024x1024_S1024x1024 (ix2 d o)
  rw [e1, e2]

/-- The scores: queries against keys, both contracted along their feature axis. -/
def scores (q : FVec Ideal S512x1024 .f32) (ks : FVec Ideal S1024x1024 .bf16) : FVec Ideal S512x1024 .f32 :=
  matmul dot_S512x1024_S1024x1024_S512x1024_1_1_0_0_n_n none (truncf .bf16 q bitsLt_bf16_f32) ks (constant (F := Ideal) S512x1024 .f32 0x00000000#32)

/-- At (r, j) the score is query row r against key row j. -/
theorem scores_apply (q : FVec Ideal S512x1024 .f32) (ks : FVec Ideal S1024x1024 .bf16) (r : Fin 512) (j : Fin 1024) :
    scores q ks (ix2 r j) = ∑ o' : Fin 1024, q (ix2 r o') * ks (ix2 j o') := by
  unfold scores
  exact matmul_transposed_apply _ _ r j

/-- The softmax weights: each score less its row's maximum, exponentiated. -/
def weights (s : FVec Ideal S512x1024 .f32) : FVec Ideal S512x1024 .f32 :=
  exp (subf s (broadcastTo S512x1024
    (shapeCast S512x1 (multiReduction (F := Ideal) .maximumf [1] S512 s 0xFF800000#32 reduces_S512x1024_S512 (.inl rfl) rfl)
      shapeCasts_S512_S512x1) broadcasts_S512x1_S512x1024))

theorem weights_apply (s : FVec Ideal S512x1024 .f32) (r : Fin 512) (j : Fin 1024) :
    weights s (ix2 r j)
      = Ideal.exp (s (ix2 r j) - (Finset.univ : Finset (Fin 1024)).fold max negInf (fun k => s (ix2 r k))) := by
  unfold weights
  have e : broadcastTo S512x1024
      (shapeCast S512x1 (multiReduction (F := Ideal) .maximumf [1] S512 s 0xFF800000#32 reduces_S512x1024_S512 (.inl rfl) rfl)
        shapeCasts_S512_S512x1) broadcasts_S512x1_S512x1024 (ix2 r j)
      = (Finset.univ : Finset (Fin 1024)).fold max negInf (fun k => s (ix2 r k)) :=
    (broadcastTo_a1_ab_apply _ broadcasts_S512x1_S512x1024 r j).trans
      ((shapeCast_a_a1_apply _ shapeCasts_S512_S512x1 r 0).trans (rowMax_apply s _ _ _ r))
  exact congrArg (fun m => Ideal.exp (s (ix2 r j) - m)) e

/-- The weighted sum of the value columns, divided once by the row's sum of weights, as a [1, 512, 1024] block. -/
def normalized (e : FVec Ideal S512x1024 .f32) (vs : FVec Ideal S1024x1024 .bf16) : FVec Ideal S1x512x1024 .f32 :=
  shapeCast S1x512x1024
    (divf
      (matmul dot_S512x1024_S1024x1024_S512x1024_1_0_0_1_n_n none (truncf .bf16 e bitsLt_bf16_f32) vs (constant (F := Ideal) S512x1024 .f32 0x00000000#32))
      (broadcastTo S512x1024
        (shapeCast S512x1 (multiReduction (F := Ideal) .add [1] S512 e 0x00000000#32 reduces_S512x1024_S512 (.inl rfl) rfl)
          shapeCasts_S512_S512x1) broadcasts_S512x1_S512x1024))
    shapeCasts_S512x1024_S1x512x1024

theorem normalized_apply (e : FVec Ideal S512x1024 .f32) (vs : FVec Ideal S1024x1024 .bf16) (r : Fin 512) (o : Fin 1024) :
    normalized e vs (ix3 (0 : Fin 1) r o)
      = Ideal.div (∑ j : Fin 1024, e (ix2 r j) * vs (ix2 j o)) (∑ j : Fin 1024, e (ix2 r j)) := by
  unfold normalized
  refine (shapeCast_ab_1ab_apply _ shapeCasts_S512x1024_S1x512x1024 (0 : Fin 1) r o).trans ?_
  have e1 : matmul dot_S512x1024_S1024x1024_S512x1024_1_0_0_1_n_n none (truncf .bf16 e bitsLt_bf16_f32) vs (constant (F := Ideal) S512x1024 .f32 0x00000000#32) (ix2 r o)
      = ∑ j : Fin 1024, e (ix2 r j) * vs (ix2 j o) := matmul_plain_apply _ _ r o
  have e2 : broadcastTo S512x1024
      (shapeCast S512x1 (multiReduction (F := Ideal) .add [1] S512 e 0x00000000#32 reduces_S512x1024_S512 (.inl rfl) rfl)
        shapeCasts_S512_S512x1) broadcasts_S512x1_S512x1024 (ix2 r o)
      = ∑ j : Fin 1024, e (ix2 r j) :=
    (broadcastTo_a1_ab_apply _ broadcasts_S512x1_S512x1024 r o).trans
      ((shapeCast_a_a1_apply _ shapeCasts_S512_S512x1 r 0).trans (rowSum_apply e _ _ _ r))
  refine (divf_apply _ _ (ix2 r o)).trans ?_
  rw [e1, e2]

/-! ## The payloads -/

/-- The two projection payloads of a block's first half, of its second half, and the carried one: each is the
    projection, narrowed (the identity here) and cast to its own shape. -/
theorem pay4_apply (v : Vec Ideal S1x512x1024 .f32) (w : Vec Ideal S1024x1024 .bf16) (r : Fin 512) (o : Fin 1024) :
    k0_pay4 (F := Ideal) v w (ix2 r o) = ∑ d : Fin 1024, v (ix3 (0 : Fin 1) r d) * w (ix2 d o) := by
  have e : k0_pay4 (F := Ideal) v w
      = shapeCast S512x1024 (truncf .bf16 (project v w) bitsLt_bf16_f32) shapeCasts_S512x1024_S512x1024 := rfl
  rw [e]
  refine (shapeCast_same_apply _ _ _).trans ?_
  exact project_apply v w r o

theorem pay5_apply (v : Vec Ideal S1x512x1024 .f32) (w : Vec Ideal S1024x1024 .bf16) (r : Fin 512) (o : Fin 1024) :
    k0_pay5 (F := Ideal) v w (ix2 r o) = ∑ d : Fin 1024, v (ix3 (0 : Fin 1) r d) * w (ix2 d o) := by
  have e : k0_pay5 (F := Ideal) v w
      = shapeCast S512x1024 (truncf .bf16 (project v w) bitsLt_bf16_f32) shapeCasts_S512x1024_S512x1024 := rfl
  rw [e]
  refine (shapeCast_same_apply _ _ _).trans ?_
  exact project_apply v w r o

theorem pay7_apply (v : Vec Ideal S1x512x1024 .f32) (w : Vec Ideal S1024x1024 .bf16) (r : Fin 512) (o : Fin 1024) :
    k0_pay7 (F := Ideal) v w (ix2 r o) = ∑ d : Fin 1024, v (ix3 (0 : Fin 1) r d) * w (ix2 d o) := by
  have e : k0_pay7 (F := Ideal) v w
      = shapeCast S512x1024 (truncf .bf16 (project v w) bitsLt_bf16_f32) shapeCasts_S512x1024_S512x1024 := rfl
  rw [e]
  refine (shapeCast_same_apply _ _ _).trans ?_
  exact project_apply v w r o

theorem pay18_apply (v : Vec Ideal S1x512x1024 .f32) (w : Vec Ideal S1024x1024 .bf16) (r : Fin 512) (o : Fin 1024) :
    k0_pay1 (F := Ideal) (k0_pay8 (F := Ideal) v w) (ix2 r o) = ∑ d : Fin 1024, v (ix3 (0 : Fin 1) r d) * w (ix2 d o) := by
  have e : k0_pay1 (F := Ideal) (k0_pay8 (F := Ideal) v w)
      = shapeCast S512x1024 (truncf .bf16 (project v w) bitsLt_bf16_f32) shapeCasts_S512x1024_S512x1024 := rfl
  rw [e]
  refine (shapeCast_same_apply _ _ _).trans ?_
  exact project_apply v w r o

/-- The output payload is the stages composed. -/
theorem pay2_eq (x : Vec Ideal S1x512x1024 .f32) (wq ks vs : Vec Ideal S1024x1024 .bf16) :
    k0_pay2 (F := Ideal) x wq ks vs = normalized (weights (scores (project x wq) ks)) vs := rfl

/-- The output payload: one softmax row per block row. -/
theorem pay2_apply (x : Vec Ideal S1x512x1024 .f32) (wq ks vs : Vec Ideal S1024x1024 .bf16) (r : Fin 512) (o : Fin 1024) :
    k0_pay2 (F := Ideal) x wq ks vs (ix3 (0 : Fin 1) r o)
      = softmaxRow (fun j => ∑ o' : Fin 1024, (∑ d : Fin 1024, x (ix3 (0 : Fin 1) r d) * wq (ix2 d o')) * ks (ix2 j o'))
          (fun j => vs (ix2 j o)) := by
  rw [pay2_eq]
  refine (normalized_apply _ vs r o).trans ?_
  have hs : ∀ j : Fin 1024, scores (project x wq) ks (ix2 r j)
      = ∑ o' : Fin 1024, (∑ d : Fin 1024, x (ix3 (0 : Fin 1) r d) * wq (ix2 d o')) * ks (ix2 j o') := fun j =>
    (scores_apply _ ks r j).trans (Finset.sum_congr rfl fun o' _ => congrArg (· * ks (ix2 j o')) (project_apply x wq r o'))
  have hw : ∀ j : Fin 1024, weights (scores (project x wq) ks) (ix2 r j)
      = Ideal.exp ((∑ o' : Fin 1024, (∑ d : Fin 1024, x (ix3 (0 : Fin 1) r d) * wq (ix2 d o')) * ks (ix2 j o'))
          - (Finset.univ : Finset (Fin 1024)).fold max negInf
              (fun k => ∑ o' : Fin 1024, (∑ d : Fin 1024, x (ix3 (0 : Fin 1) r d) * wq (ix2 d o')) * ks (ix2 k o'))) := fun j => by
    rw [weights_apply, hs j]
    exact congrArg (fun f : Fin 1024 → EReal => Ideal.exp (_ - (Finset.univ : Finset (Fin 1024)).fold max negInf f)) (funext hs)
  unfold softmaxRow
  simp only [hw]

end Cert.KernelPayload

end
-- ==== Proof.KernelPieces.lean ====
import proofs.«427656_j51634096832973_3_alg».proof.Proof.Gen.KernelIdeal.Frame
import proofs.«427656_j51634096832973_3_alg».proof.Proof.AttentionSpec
import proofs.«427656_j51634096832973_3_alg».proof.Proof.KernelPayload
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.ShloMosaic.Tactic Idealize.SL.Sem Idealize.ShloMosaic.ValueIdx

namespace Cert.KernelPieces

open Cert.AttentionSpec Cert.KernelIdeal Cert.KernelIdeal.Gen Cert.KernelPayload

theorem hz2 : (![0, 0] : Fin 2 → Nat) = fun _ => 0 := funext fun a => by fin_cases a <;> rfl
theorem hz3 : (![0, 0, 0] : Fin 3 → Nat) = fun _ => 0 := funext fun a => by fin_cases a <;> rfl

/-- One batch's conditioning block projected by a transposed weight: entry (j, o) is the product of row `j` of the
    block with column `o` of the weight. Both halves of the key scratch, and both halves of the value scratch, are
    rows of this one matrix. -/
def projRows (x : Vec Ideal S1x1024x1024 .f32) (w : Vec Ideal S1024x1024 .bf16) : Vec Ideal S1024x1024 .bf16 :=
  fun y => ∑ d : Fin 1024, x (ix3 (0 : Fin 1) (y 0) d) * w (ix2 d (y 1))

/-- One query tile's attention rows against given keys and values: entry (0, r, o) is the softmax row of query row
    `r`'s scores against every key, weighting column `o` of the values. -/
def attnRows (x : Vec Ideal S1x512x1024 .f32) (wq ks vs : Vec Ideal S1024x1024 .bf16) : Vec Ideal S1x512x1024 .f32 :=
  fun y => softmaxRow (fun j => ∑ o' : Fin 1024, (∑ d : Fin 1024, x (ix3 (0 : Fin 1) (y 1) d) * wq (ix2 d o')) * ks (ix2 j o'))
    (fun j => vs (ix2 j (y 2)))

/-- The output payload is the attention rows of its four loads. -/
theorem pay2_eq (x : Vec Ideal S1x512x1024 .f32) (wq ks vs : Vec Ideal S1024x1024 .bf16) :
    k0_pay2 (F := Ideal) x wq ks vs = attnRows x wq ks vs := by
  funext y
  obtain ⟨a, r, o, rfl⟩ : ∃ (a : Fin 1) (r : Fin 512) (o : Fin 1024), y = ix3 a r o := ⟨y 0, y 1, y 2, eq_ix3 y⟩
  obtain rfl : a = 0 := Subsingleton.elim _ _
  exact pay2_apply x wq ks vs r o

/-- The lower half of the conditioning block, read through the load's rectangle. -/
theorem ld_lower (x : Vec Ideal S1x1024x1024 .f32) (r : Fin 512) (d : Fin 1024) :
    View.ld x (Rect.unit (s := S1x1024x1024) ![0, 0, 0] S1x512x1024.size inb_S1x1024x1024_S1x512x1024_0_0_0) (ix3 (0 : Fin 1) r d)
      = x (ix3 (0 : Fin 1) ⟨r.val, by omega⟩ d) := by
  show x _ = x _
  refine congrArg x (funext fun a => Fin.ext ?_)
  match a with
  | ⟨0, _⟩ => rfl
  | ⟨1, _⟩ => show 0 + 1 * r.val = r.val; omega
  | ⟨2, _⟩ => show 0 + 1 * d.val = d.val; omega

/-- The upper half likewise: block row `r` is row `512 + r`. -/
theorem ld_upper (x : Vec Ideal S1x1024x1024 .f32) (r : Fin 512) (d : Fin 1024) :
    View.ld x (Rect.unit (s := S1x1024x1024) ![0, 512, 0] S1x512x1024.size inb_S1x1024x1024_S1x512x1024_0_512_0) (ix3 (0 : Fin 1) r d)
      = x (ix3 (0 : Fin 1) ⟨512 + r.val, by omega⟩ d) := by
  show x _ = x _
  refine congrArg x (funext fun a => Fin.ext ?_)
  match a with
  | ⟨0, _⟩ => rfl
  | ⟨1, _⟩ => show 512 + 1 * r.val = 512 + r.val; omega
  | ⟨2, _⟩ => show 0 + 1 * d.val = d.val; omega

/-- The two half-height rectangles cover the scratch. -/
theorem halves_cover (pl pu : Vec Ideal S512x1024 .bf16) (y : S1024x1024.Idx) :
    ∃ p ∈ [(⟨Rect.unit (s := S1024x1024) ![512, 0] S512x1024.size inb_S1024x1024_S512x1024_512_0, pu⟩ : View.Piece (Elt Ideal) S1024x1024 .bf16),
      ⟨Rect.unit (s := S1024x1024) ![0, 0] S512x1024.size inb_S1024x1024_S512x1024_0_0, pl⟩], y ∈ p.1.set := by
  have h0 : (y 0).val < 1024 := (y 0).isLt
  have h1 : (y 1).val < 1024 := (y 1).isLt
  by_cases hlt : (y 0).val < 512
  · refine ⟨_, List.mem_cons_of_mem _ (List.mem_singleton_self _), ?_⟩
    rw [Rect.mem_set_unit]
    intro a
    match a with
    | ⟨0, _⟩ => show 0 ≤ (y 0).val ∧ (y 0).val < 0 + 512; omega
    | ⟨1, _⟩ => show 0 ≤ (y 1).val ∧ (y 1).val < 0 + 1024; omega
  · refine ⟨_, List.mem_cons_self, ?_⟩
    rw [Rect.mem_set_unit]
    intro a
    match a with
    | ⟨0, _⟩ => show 512 ≤ (y 0).val ∧ (y 0).val < 512 + 512; omega
    | ⟨1, _⟩ => show 0 ≤ (y 1).val ∧ (y 1).val < 0 + 1024; omega

/-- Two half-height stores, the lower rows' payload and the upper rows', leave the whole projected matrix when each
    payload is the projection of its half of the block. -/
theorem canon_halves (x : Vec Ideal S1x1024x1024 .f32) (w : Vec Ideal S1024x1024 .bf16)
    (pl pu : Vec Ideal S512x1024 .bf16)
    (hl : ∀ (r : Fin 512) (o : Fin 1024), pl (ix2 r o) = ∑ d : Fin 1024, x (ix3 (0 : Fin 1) ⟨r.val, by omega⟩ d) * w (ix2 d o))
    (hu : ∀ (r : Fin 512) (o : Fin 1024), pu (ix2 r o) = ∑ d : Fin 1024, x (ix3 (0 : Fin 1) ⟨512 + r.val, by omega⟩ d) * w (ix2 d o)) :
    View.canon (Val := Elt Ideal) [(⟨Rect.unit (s := S1024x1024) ![512, 0] S512x1024.size inb_S1024x1024_S512x1024_512_0, pu⟩ : View.Piece (Elt Ideal) S1024x1024 .bf16),
      ⟨Rect.unit (s := S1024x1024) ![0, 0] S512x1024.size inb_S1024x1024_S512x1024_0_0, pl⟩] = projRows x w := by
  funext y
  refine View.canon_apply_of_pieces (projRows x w) _ (fun p hp z => ?_) y ?_
  · rcases List.mem_cons.mp hp with rfl | hp
    · obtain ⟨r, o, rfl⟩ : ∃ (r : Fin 512) (o : Fin 1024), z = ix2 r o := ⟨z 0, z 1, eq_ix2 z⟩
      refine (hu r o).trans ?_
      unfold projRows
      refine Finset.sum_congr rfl fun d _ => ?_
      congr 2
      · refine funext fun a => Fin.ext ?_
        match a with
        | ⟨0, _⟩ => rfl
        | ⟨1, _⟩ => show 512 + r.val = 512 + 1 * r.val; omega
        | ⟨2, _⟩ => rfl
      · refine funext fun a => Fin.ext ?_
        match a with
        | ⟨0, _⟩ => rfl
        | ⟨1, _⟩ => show o.val = 0 + 1 * o.val; omega
    · obtain rfl : p = _ := List.mem_singleton.mp hp
      obtain ⟨r, o, rfl⟩ : ∃ (r : Fin 512) (o : Fin 1024), z = ix2 r o := ⟨z 0, z 1, eq_ix2 z⟩
      refine (hl r o).trans ?_
      unfold projRows
      refine Finset.sum_congr rfl fun d _ => ?_
      congr 2
      · refine funext fun a => Fin.ext ?_
        match a with
        | ⟨0, _⟩ => rfl
        | ⟨1, _⟩ => show r.val = 0 + 1 * r.val; omega
        | ⟨2, _⟩ => rfl
      · refine funext fun a => Fin.ext ?_
        match a with
        | ⟨0, _⟩ => rfl
        | ⟨1, _⟩ => show o.val = 0 + 1 * o.val; omega
  · exact halves_cover pl pu y

/-! ## What each case of the body leaves, as values

The key scratch after the first tile of a batch is the batch's conditioning block projected by the key weight, the
value scratch the same by the value weight; the output tile is the attention rows of the query tile against whatever
the two scratches hold — in the first tile of a batch what the body has just stored there, read back, in the second
what the first left. -/

theorem keyScratch_A (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1024x1024 .bf16) (harg8 : arg8.IsWhole) (arg9 : Memref sig .tc .vmem S1024x1024 .bf16) (harg9 : arg9.IsWhole) (hc0 : cond0_0 i) (x0 : Vec Ideal S1x512x1024 .f32) (x1 : Vec Ideal S1x1024x1024 .f32) (x2 : Vec Ideal S1024x1024 .bf16) (x3 : Vec Ideal S1024x1024 .bf16) (x4 : Vec Ideal S1024x1024 .bf16) :
    sout0_A_0 (F := Ideal) c i arg2 harg2 arg3 harg3 arg4 harg4 arg5 harg5 arg6 harg6 arg7 harg7 arg8 harg8 arg9 harg9 hc0 x0 x1 x2 x3 x4 = projRows x1 x3 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg3.read_unread, harg5.read_unread, View.ld_unit_zero (S := S1024x1024) hz2]
  exact canon_halves x1 x3 _ _ (fun r o => (pay4_apply _ _ r o).trans (Finset.sum_congr rfl fun d _ => congrArg (· * _) (ld_lower x1 r d)))
    (fun r o => (pay7_apply _ _ r o).trans (Finset.sum_congr rfl fun d _ => congrArg (· * _) (ld_upper x1 r d)))

theorem valueScratch_A (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1024x1024 .bf16) (harg8 : arg8.IsWhole) (arg9 : Memref sig .tc .vmem S1024x1024 .bf16) (harg9 : arg9.IsWhole) (hc0 : cond0_0 i) (x0 : Vec Ideal S1x512x1024 .f32) (x1 : Vec Ideal S1x1024x1024 .f32) (x2 : Vec Ideal S1024x1024 .bf16) (x3 : Vec Ideal S1024x1024 .bf16) (x4 : Vec Ideal S1024x1024 .bf16) :
    sout0_A_1 (F := Ideal) c i arg2 harg2 arg3 harg3 arg4 harg4 arg5 harg5 arg6 harg6 arg7 harg7 arg8 harg8 arg9 harg9 hc0 x0 x1 x2 x3 x4 = projRows x1 x4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg3.read_unread, harg6.read_unread, View.ld_unit_zero (S := S1024x1024) hz2]
  exact canon_halves x1 x4 _ _ (fun r o => (pay5_apply _ _ r o).trans (Finset.sum_congr rfl fun d _ => congrArg (· * _) (ld_lower x1 r d)))
    (fun r o => (pay18_apply _ _ r o).trans (Finset.sum_congr rfl fun d _ => congrArg (· * _) (ld_upper x1 r d)))

theorem out_A (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1024x1024 .bf16) (harg8 : arg8.IsWhole) (arg9 : Memref sig .tc .vmem S1024x1024 .bf16) (harg9 : arg9.IsWhole) (hc0 : cond0_0 i) (x0 : Vec Ideal S1x512x1024 .f32) (x1 : Vec Ideal S1x1024x1024 .f32) (x2 : Vec Ideal S1024x1024 .bf16) (x3 : Vec Ideal S1024x1024 .bf16) (x4 : Vec Ideal S1024x1024 .bf16) :
    out0_A_5 (F := Ideal) c i arg2 harg2 arg3 harg3 arg4 harg4 arg5 harg5 arg6 harg6 arg7 harg7 arg8 harg8 arg9 harg9 hc0 x0 x1 x2 x3 x4 = attnRows x0 x2 (projRows x1 x3) (projRows x1 x4) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz3]
  rw [View.readCov_eq_canon_ld _ _ _ (fun y => halves_cover _ _ y), View.readCov_eq_canon_ld _ _ _ (fun y => halves_cover _ _ y)]
  simp only [View.readAt_eq_ld, harg2.read_unread, harg3.read_unread, harg4.read_unread, harg5.read_unread, harg6.read_unread,
    View.ld_unit_zero (S := S1024x1024) hz2, View.ld_unit_zero (S := S1x512x1024) hz3]
  rw [canon_halves x1 x3 _ _ (fun r o => (pay4_apply _ _ r o).trans (Finset.sum_congr rfl fun d _ => congrArg (· * _) (ld_lower x1 r d)))
      (fun r o => (pay7_apply _ _ r o).trans (Finset.sum_congr rfl fun d _ => congrArg (· * _) (ld_upper x1 r d))),
    canon_halves x1 x4 _ _ (fun r o => (pay5_apply _ _ r o).trans (Finset.sum_congr rfl fun d _ => congrArg (· * _) (ld_lower x1 r d)))
      (fun r o => (pay18_apply _ _ r o).trans (Finset.sum_congr rfl fun d _ => congrArg (· * _) (ld_upper x1 r d)))]
  exact pay2_eq x0 x2 _ _

theorem out_B (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1024x1024 .bf16) (harg8 : arg8.IsWhole) (arg9 : Memref sig .tc .vmem S1024x1024 .bf16) (harg9 : arg9.IsWhole) (hc0 : ¬cond0_0 i) (x0 : Vec Ideal S1x512x1024 .f32) (x1 : Vec Ideal S1x1024x1024 .f32) (x2 : Vec Ideal S1024x1024 .bf16) (x3 : Vec Ideal S1024x1024 .bf16) (x4 : Vec Ideal S1024x1024 .bf16) (xs0 xs1 : Vec Ideal S1024x1024 .bf16) :
    out0_B_5 (F := Ideal) c i arg2 harg2 arg3 harg3 arg4 harg4 arg5 harg5 arg6 harg6 arg7 harg7 arg8 harg8 arg9 harg9 hc0 x0 x1 x2 x3 x4 xs0 xs1 = attnRows x0 x2 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero hz3]
  simp only [View.readAt_eq_ld, harg2.read_unread, harg4.read_unread, harg8.read_unread, harg9.read_unread,
    View.ld_unit_zero (S := S1024x1024) hz2, View.ld_unit_zero (S := S1x512x1024) hz3]
  exact pay2_eq x0 x2 xs0 xs1

end Cert.KernelPieces

end
-- ==== Proof.KernelArrays.lean ====
import proofs.«427656_j51634096832973_3_alg».proof.Proof.Gen.KernelIdeal.Frame
import proofs.«427656_j51634096832973_3_alg».proof.Proof.AttentionSpec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx

namespace Cert.KernelArrays

open Cert.AttentionSpec Cert.KernelIdeal Cert.KernelIdeal.Gen

variable (m : (ℓ : Loc nD τ sig) → Buf (Elt Ideal) ℓ)

/-! ## The arrays the region finds -/

/-- The two images flattened, as the region finds them. -/
abbrev xFlat (c : Dev nD) : A3.Idx → EReal := shapeCast S16x1024x1024 (m ((c : Thread nD τ).loc main_arg0)) shapeCasts_S16x1024x32x32_S16x1024x1024
abbrev cFlat (c : Dev nD) : A3.Idx → EReal := shapeCast S16x1024x1024 (m ((c : Thread nD τ).loc main_arg1)) shapeCasts_S16x1024x32x32_S16x1024x1024
/-- The two weights, as launched. -/
abbrev wqArr (c : Dev nD) : A2.Idx → EReal := m ((c : Thread nD τ).loc main_arg2)
abbrev wkvArr (c : Dev nD) : B2.Idx → EReal := m ((c : Thread nD τ).loc main_arg3)

theorem V_x (c : Dev nD) : (V m c main_v0 : S16x1024x1024.Idx → EReal) = xFlat m c := by
  show StableHlo.after hostOps0 (fun b => m (c, b)) (Proc.devRef .tc main_v0) = _
  after_results; rfl

theorem V_c (c : Dev nD) : (V m c main_v1 : S16x1024x1024.Idx → EReal) = cFlat m c := by
  show StableHlo.after hostOps0 (fun b => m (c, b)) (Proc.devRef .tc main_v1) = _
  after_results; rfl

/-- The scaled, transposed query weight: entry (d, o) is `wq (o, d) * scale`. -/
theorem V_wq (c : Dev nD) (d o : Fin 1024) : (V m c main_v7 : S1024x1024.Idx → EReal) (ix2 d o) = wqArr m c (ix2 o d) * scale := by
  have e : (V m c main_v7 : S1024x1024.Idx → EReal) = truncf .bf16 (transpose S1024x1024 [1, 0] (mulf (wqArr m c) (broadcastInDim S1024x1024 ![] bcast_S_S1024x1024 (constant (F := Ideal) S_ .f32 0x3D000000#32))) transposes_S1024x1024_S1024x1024_1_0) bitsLt_bf16_f32 := by
    show StableHlo.after hostOps0 (fun b => m (c, b)) (Proc.devRef .tc main_v7) = _
    after_results; try rfl
  rw [e]
  refine (truncf_apply (ψ := .bf16) _ bitsLt_bf16_f32 _).trans ?_
  refine (transpose_apply [1, 0] _ transposes_S1024x1024_S1024x1024_1_0 (ix2 d o) (ix2 o d) (fun b => ?_)).trans ?_
  · match b with
    | ⟨0, _⟩ => rfl
    | ⟨1, _⟩ => rfl
  · rfl

/-- The transposed key weight: entry (d, o) is row `o` of the stacked weight at `d`. -/
theorem V_wk (c : Dev nD) (d o : Fin 1024) : (V m c main_v9 : S1024x1024.Idx → EReal) (ix2 d o) = wkvArr m c (ix2 (lo o) d) := by
  have e : (V m c main_v9 : S1024x1024.Idx → EReal) = (truncf .bf16 (transpose S1024x1024 [1, 0] (extractStridedSlice S1024x1024 ![0, 0] (wkvArr m c) slices_S2048x1024_S1024x1024_0_0 : FVec Ideal S1024x1024 .f32) transposes_S1024x1024_S1024x1024_1_0) bitsLt_bf16_f32 : FVec Ideal S1024x1024 .bf16) := by
    show StableHlo.after hostOps0 (fun b => m (c, b)) (Proc.devRef .tc main_v9) = _
    after_results; try rfl
  rw [e]
  refine (truncf_apply (ψ := .bf16) _ bitsLt_bf16_f32 _).trans ?_
  refine (transpose_apply [1, 0] _ transposes_S1024x1024_S1024x1024_1_0 (ix2 d o) (ix2 o d) (fun b => ?_)).trans ?_
  · match b with
    | ⟨0, _⟩ => rfl
    | ⟨1, _⟩ => rfl
  · refine extractStridedSlice_apply ![0, 0] _ slices_S2048x1024_S1024x1024_0_0 (ix2 o d) (ix2 (lo o) d) (fun a => ?_)
    match a with
    | ⟨0, _⟩ => show o.val = 0 + o.val; omega
    | ⟨1, _⟩ => show d.val = 0 + d.val; omega

/-- The transposed value weight: entry (d, o) is row `1024 + o` of the stacked weight at `d`. -/
theorem V_wv (c : Dev nD) (d o : Fin 1024) : (V m c main_v11 : S1024x1024.Idx → EReal) (ix2 d o) = wkvArr m c (ix2 (hi o) d) := by
  have e : (V m c main_v11 : S1024x1024.Idx → EReal) = (truncf .bf16 (transpose S1024x1024 [1, 0] (extractStridedSlice S1024x1024 ![1024, 0] (wkvArr m c) slices_S2048x1024_S1024x1024_1024_0 : FVec Ideal S1024x1024 .f32) transposes_S1024x1024_S1024x1024_1_0) bitsLt_bf16_f32 : FVec Ideal S1024x1024 .bf16) := by
    show StableHlo.after hostOps0 (fun b => m (c, b)) (Proc.devRef .tc main_v11) = _
    after_results; try rfl
  rw [e]
  refine (truncf_apply (ψ := .bf16) _ bitsLt_bf16_f32 _).trans ?_
  refine (transpose_apply [1, 0] _ transposes_S1024x1024_S1024x1024_1_0 (ix2 d o) (ix2 o d) (fun b => ?_)).trans ?_
  · match b with
    | ⟨0, _⟩ => rfl
    | ⟨1, _⟩ => rfl
  · refine extractStridedSlice_apply ![1024, 0] _ slices_S2048x1024_S1024x1024_1024_0 (ix2 o d) (ix2 (hi o) d) (fun a => ?_)
    match a with
    | ⟨0, _⟩ => show 1024 + o.val = 1024 + o.val; rfl
    | ⟨1, _⟩ => show d.val = 0 + d.val; omega

/-! ## The windows' blocks -/

/-- The index maps over the grid: point `t` is tile `t % 2` of batch `t / 2`. -/
theorem index_facts : ∀ t : Fin cfg0.N,
    win0_0.index t 0 = t.val / 2 ∧ win0_0.index t 1 = t.val % 2 ∧ win0_0.index t 2 = 0
    ∧ win0_1.index t 0 = t.val / 2 ∧ win0_1.index t 1 = 0 ∧ win0_1.index t 2 = 0
    ∧ win0_2.index t 0 = 0 ∧ win0_2.index t 1 = 0 ∧ win0_3.index t 0 = 0 ∧ win0_3.index t 1 = 0
    ∧ win0_4.index t 0 = 0 ∧ win0_4.index t 1 = 0
    ∧ win0_5.index t 0 = t.val / 2 ∧ win0_5.index t 1 = t.val % 2 ∧ win0_5.index t 2 = 0 :=
  (by decide +kernel : ∀ t : Fin grid0.N, _)

/-- The point's batch and its tile's first row. -/
abbrev batchOf (t : Fin cfg0.N) : Fin 16 := ⟨t.val / 2, by have := t.isLt; have : cfg0.N = 32 := N_0; omega⟩
abbrev rowOf (t : Fin cfg0.N) (r : Fin 512) : Fin 1024 := ⟨t.val % 2 * 512 + r.val, by omega⟩

/-- The blocks by their literal types. -/
abbrev xBlk (c : Dev nD) (t : Fin cfg0.N) : Vec Ideal S1x512x1024 .f32 := iblk m c 0 t
abbrev cBlk (c : Dev nD) (t : Fin cfg0.N) : Vec Ideal S1x1024x1024 .f32 := iblk m c 1 t
abbrev wqBlk (c : Dev nD) (t : Fin cfg0.N) : Vec Ideal S1024x1024 .bf16 := iblk m c 2 t
abbrev wkBlk (c : Dev nD) (t : Fin cfg0.N) : Vec Ideal S1024x1024 .bf16 := iblk m c 3 t
abbrev wvBlk (c : Dev nD) (t : Fin cfg0.N) : Vec Ideal S1024x1024 .bf16 := iblk m c 4 t

theorem xBlk_apply (c : Dev nD) (t : Fin cfg0.N) (r : Fin 512) (d : Fin 1024) :
    xBlk m c t (ix3 (0 : Fin 1) r d) = xFlat m c (ix3 (batchOf t) (rowOf t r) d) := by
  rw [← V_x]
  unfold xBlk iblk
  rw [View.read_apply]
  show V m c main_v0 _ = V m c main_v0 _
  congr 1
  funext a
  apply Fin.ext
  obtain ⟨h0, h1, h2, -⟩ := index_facts t
  match a with
  | ⟨0, _⟩ => show win0_0.index t 0 * 1 + 1 * 0 = t.val / 2; rw [h0]; omega
  | ⟨1, _⟩ => show win0_0.index t 1 * 512 + 1 * r.val = t.val % 2 * 512 + r.val; rw [h1]; omega
  | ⟨2, _⟩ => show win0_0.index t 2 * 1024 + 1 * d.val = d.val; rw [h2]; omega

theorem cBlk_apply (c : Dev nD) (t : Fin cfg0.N) (j d : Fin 1024) :
    cBlk m c t (ix3 (0 : Fin 1) j d) = cFlat m c (ix3 (batchOf t) j d) := by
  rw [← V_c]
  unfold cBlk iblk
  rw [View.read_apply]
  show V m c main_v1 _ = V m c main_v1 _
  congr 1
  funext a
  apply Fin.ext
  obtain ⟨-, -, -, h0, h1, h2, -⟩ := index_facts t
  match a with
  | ⟨0, _⟩ => show win0_1.index t 0 * 1 + 1 * 0 = t.val / 2; rw [h0]; omega
  | ⟨1, _⟩ => show win0_1.index t 1 * 1024 + 1 * j.val = j.val; rw [h1]; omega
  | ⟨2, _⟩ => show win0_1.index t 2 * 1024 + 1 * d.val = d.val; rw [h2]; omega

theorem wqBlk_apply (c : Dev nD) (t : Fin cfg0.N) (d o : Fin 1024) :
    wqBlk m c t (ix2 d o) = wqArr m c (ix2 o d) * scale := by
  rw [← V_wq]
  unfold wqBlk iblk
  rw [View.read_apply]
  show V m c main_v7 _ = V m c main_v7 _
  congr 1
  funext a
  apply Fin.ext
  obtain ⟨-, -, -, -, -, -, h0, h1, -⟩ := index_facts t
  match a with
  | ⟨0, _⟩ => show win0_2.index t 0 * 1024 + 1 * d.val = d.val; rw [h0]; omega
  | ⟨1, _⟩ => show win0_2.index t 1 * 1024 + 1 * o.val = o.val; rw [h1]; omega

theorem wkBlk_apply (c : Dev nD) (t : Fin cfg0.N) (d o : Fin 1024) :
    wkBlk m c t (ix2 d o) = wkvArr m c (ix2 (lo o) d) := by
  rw [← V_wk]
  unfold wkBlk iblk
  rw [View.read_apply]
  show V m c main_v9 _ = V m c main_v9 _
  congr 1
  funext a
  apply Fin.ext
  obtain ⟨-, -, -, -, -, -, -, -, h0, h1, -⟩ := index_facts t
  match a with
  | ⟨0, _⟩ => show win0_3.index t 0 * 1024 + 1 * d.val = d.val; rw [h0]; omega
  | ⟨1, _⟩ => show win0_3.index t 1 * 1024 + 1 * o.val = o.val; rw [h1]; omega

theorem wvBlk_apply (c : Dev nD) (t : Fin cfg0.N) (d o : Fin 1024) :
    wvBlk m c t (ix2 d o) = wkvArr m c (ix2 (hi o) d) := by
  rw [← V_wv]
  unfold wvBlk iblk
  rw [View.read_apply]
  show V m c main_v11 _ = V m c main_v11 _
  congr 1
  funext a
  apply Fin.ext
  obtain ⟨-, -, -, -, -, -, -, -, -, -, h0, h1, -⟩ := index_facts t
  match a with
  | ⟨0, _⟩ => show win0_4.index t 0 * 1024 + 1 * d.val = d.val; rw [h0]; omega
  | ⟨1, _⟩ => show win0_4.index t 1 * 1024 + 1 * o.val = o.val; rw [h1]; omega

end Cert.KernelArrays

end
-- ==== Proof.KernelValue.lean ====
import proofs.«427656_j51634096832973_3_alg».proof.Proof.KernelPieces
import proofs.«427656_j51634096832973_3_alg».proof.Proof.KernelArrays
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelValue

open Cert.AttentionSpec Cert.KernelIdeal Cert.KernelIdeal.Gen Cert.KernelPieces Cert.KernelArrays

variable (m : (ℓ : Loc nD τ sig) → Buf (Elt Ideal) ℓ) (ρ : Dev nD → PrngReg)

/-! ## The blocks two points share -/

/-- The two tiles of one batch see the same conditioning block. -/
theorem cBlk_congr (c : Dev nD) (t t' : Fin cfg0.N) (h : t.val / 2 = t'.val / 2) : cBlk m c t = cBlk m c t' := by
  funext y
  obtain ⟨a, j, d, rfl⟩ : ∃ (a : Fin 1) (j d : Fin 1024), y = ix3 a j d := ⟨y 0, y 1, y 2, eq_ix3 y⟩
  obtain rfl : a = 0 := Subsingleton.elim _ _
  rw [cBlk_apply, cBlk_apply, show batchOf t = batchOf t' from Fin.ext h]

/-- Every point sees the same key weight, -/
theorem wkBlk_congr (c : Dev nD) (t t' : Fin cfg0.N) : wkBlk m c t = wkBlk m c t' := by
  funext y
  obtain ⟨d, o, rfl⟩ : ∃ (d o : Fin 1024), y = ix2 d o := ⟨y 0, y 1, eq_ix2 y⟩
  rw [wkBlk_apply, wkBlk_apply]

/-- and the same value weight. -/
theorem wvBlk_congr (c : Dev nD) (t t' : Fin cfg0.N) : wvBlk m c t = wvBlk m c t' := by
  funext y
  obtain ⟨d, o, rfl⟩ : ∃ (d o : Fin 1024), y = ix2 d o := ⟨y 0, y 1, eq_ix2 y⟩
  rw [wvBlk_apply, wvBlk_apply]

/-! ## The scratches after each point, and each point's output tile -/

/-- After every point the key scratch holds the point's batch projected by the key weight and the value scratch
    the same by the value weight: the first tile of a batch stores them, the second finds them. By induction on the
    point. -/
theorem scratch_eq (c : Dev nD) : ∀ (n : ℕ) (h : n < cfg0.N),
    (outsAt0 m c n h).2.1 = projRows (cBlk m c ⟨n, h⟩) (wkBlk m c ⟨n, h⟩)
      ∧ (outsAt0 m c n h).2.2 = projRows (cBlk m c ⟨n, h⟩) (wvBlk m c ⟨n, h⟩)
  | 0, h => by
    rw [outsAt0_A m c ⟨0, h⟩ rfl]
    dsimp only
    exact ⟨keyScratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩),
      valueScratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)⟩
  | n + 1, h => by
    by_cases h0 : (n + 1) % 2 = 0
    · rw [outsAt0_A m c ⟨n + 1, h⟩ h0]
      dsimp only
      exact ⟨keyScratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩),
        valueScratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)⟩
    · obtain ⟨ih1, ih2⟩ := scratch_eq c n (Nat.lt_of_succ_lt h)
      rw [outsAt0_B m c ⟨n + 1, h⟩ h0]
      dsimp only
      unfold sout0_B_0 sout0_B_1
      have hc : cBlk m c ⟨n, Nat.lt_of_succ_lt h⟩ = cBlk m c ⟨n + 1, h⟩ := cBlk_congr m c _ _ (by show n / 2 = (n + 1) / 2; omega)
      exact ⟨ih1.trans (by rw [hc, wkBlk_congr m c ⟨n, Nat.lt_of_succ_lt h⟩ ⟨n + 1, h⟩]),
        ih2.trans (by rw [hc, wvBlk_congr m c ⟨n, Nat.lt_of_succ_lt h⟩ ⟨n + 1, h⟩])⟩

/-- Every point's output tile is the attention rows of its query tile against its batch's keys and values. -/
theorem out_eq (c : Dev nD) (t : Fin cfg0.N) :
    (outsAt0 m c t.val t.isLt).1
      = attnRows (xBlk m c t) (wqBlk m c t) (projRows (cBlk m c t) (wkBlk m c t)) (projRows (cBlk m c t) (wvBlk m c t)) := by
  by_cases h0 : t.val % 2 = 0
  · rw [outsAt0_A m c t h0]
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
  · have hN : cfg0.N = 32 := N_0
    have ht := t.isLt
    have hlt : t.val - 1 < cfg0.N := by omega
    obtain ⟨ih1, ih2⟩ := scratch_eq m c (t.val - 1) hlt
    have hc : cBlk m c ⟨t.val - 1, hlt⟩ = cBlk m c t := cBlk_congr m c _ _ (by show (t.val - 1) / 2 = t.val / 2; omega)
    rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) _ _).trans ?_
    rw [ih1, ih2, hc, wkBlk_congr m c ⟨t.val - 1, hlt⟩ t, wvBlk_congr m c ⟨t.val - 1, hlt⟩ t]

/-- The tile, entry by entry, is the specification at the tile's place in the array. -/
theorem tile_eq (c : Dev nD) (t : Fin cfg0.N) (r : Fin 512) (o : Fin 1024) :
    attnRows (xBlk m c t) (wqBlk m c t) (projRows (cBlk m c t) (wkBlk m c t)) (projRows (cBlk m c t) (wvBlk m c t)) (ix3 (0 : Fin 1) r o)
      = attention (xFlat m c) (cFlat m c) (wqArr m c) (wkvArr m c) (ix3 (batchOf t) (rowOf t r) o) := by
  show softmaxRow (fun j => ∑ o' : Fin 1024, (∑ d : Fin 1024, xBlk m c t (ix3 (0 : Fin 1) r d) * wqBlk m c t (ix2 d o'))
        * (∑ d : Fin 1024, cBlk m c t (ix3 (0 : Fin 1) j d) * wkBlk m c t (ix2 d o')))
      (fun j => ∑ d : Fin 1024, cBlk m c t (ix3 (0 : Fin 1) j d) * wvBlk m c t (ix2 d o))
    = softmaxRow (fun j => ∑ o' : Fin 1024, (∑ d : Fin 1024, xFlat m c (ix3 (batchOf t) (rowOf t r) d) * (wqArr m c (ix2 o' d) * scale))
        * (∑ d : Fin 1024, cFlat m c (ix3 (batchOf t) j d) * wkvArr m c (ix2 (lo o') d)))
      (fun j => ∑ d : Fin 1024, cFlat m c (ix3 (batchOf t) j d) * wkvArr m c (ix2 (hi o) d))
  simp only [xBlk_apply, cBlk_apply, wqBlk_apply, wkBlk_apply, wvBlk_apply]

/-! ## From tiles to the array -/

/-- The attention of the arrays the region finds. -/
abbrev result3 (c : Dev nD) : A3.Idx → EReal := attention (xFlat m c) (cFlat m c) (wqArr m c) (wkvArr m c)

/-- What point `t` writes back is block `t` of the attention array. -/
theorem flushed_eq (c : Dev nD) (t : Fin cfg0.N) :
    (dats m 0 c).flushed 5 t = ((cfg0.win 5).blk t).view.read (Elt Ideal) (result3 m c) := by
  show (cfg0.win 5).cut (grid0.coords t) ((dats m 0 c).after 5 t) = _
  rw [after0_5, out_eq]
  have key : ∀ y : S1x512x1024.Idx,
      attnRows (xBlk m c t) (wqBlk m c t) (projRows (cBlk m c t) (wkBlk m c t)) (projRows (cBlk m c t) (wvBlk m c t)) y
        = result3 m c (((cfg0.win 5).blk t).view.emb y) := by
    intro y
    obtain ⟨a, r, o, rfl⟩ : ∃ (a : Fin 1) (r : Fin 512) (o : Fin 1024), y = ix3 a r o := ⟨y 0, y 1, y 2, eq_ix3 y⟩
    obtain rfl : a = 0 := Subsingleton.elim _ _
    refine (tile_eq m c t r o).trans (congrArg (result3 m c) ?_)
    obtain ⟨-, -, -, -, -, -, -, -, -, -, -, -, h0, h1, h2⟩ := index_facts t
    funext a; apply Fin.ext
    match a with
    | ⟨0, _⟩ => show t.val / 2 = win0_5.index t 0 * 1 + 1 * 0; rw [h0]; omega
    | ⟨1, _⟩ => show t.val % 2 * 512 + r.val = win0_5.index t 1 * 512 + 1 * r.val; rw [h1]; omega
    | ⟨2, _⟩ => show o.val = win0_5.index t 2 * 1024 + 1 * o.val; rw [h2]; omega
  funext y
  exact key y

/-- Every index of the array is in some point's block: batch `b`, row `i` is in tile `i / 512` of batch `b`. -/
theorem covered (i : S16x1024x1024.Idx) :
    ∃ t : Fin cfg0.N, (cfg0.win 5).flush t = true ∧ i ∈ ((cfg0.win 5).blk t).view.set := by
  have hN : cfg0.N = 32 := N_0
  have i0 : (i 0).val < 16 := (i 0).isLt
  have i1 : (i 1).val < 1024 := (i 1).isLt
  have i2 : (i 2).val < 1024 := (i 2).isLt
  obtain ⟨t, ht⟩ : ∃ t : Fin cfg0.N, t.val = 2 * (i 0).val + (i 1).val / 512 := ⟨⟨_, by omega⟩, rfl⟩
  refine ⟨t, flush0_5 t, ?_⟩
  obtain ⟨-, -, -, -, -, -, -, -, -, -, -, -, h0, h1, h2⟩ := index_facts t
  show i ∈ ((View.whole main_v12).slice (win0_5.rect t)).set
  rw [View.set_slice_whole, Rect.mem_set_unit]
  intro a
  match a with
  | ⟨0, _⟩ => show win0_5.index t 0 * 1 ≤ (i 0).val ∧ (i 0).val < win0_5.index t 0 * 1 + 1; rw [h0]; omega
  | ⟨1, _⟩ => show win0_5.index t 1 * 512 ≤ (i 1).val ∧ (i 1).val < win0_5.index t 1 * 512 + 512; rw [h1]; omega
  | ⟨2, _⟩ => show win0_5.index t 2 * 1024 ≤ (i 2).val ∧ (i 2).val < win0_5.index t 2 * 1024 + 1024; rw [h2]; omega

/-- So the kernel's output array ends holding the attention of the arrays the region finds. -/
theorem final (c : Dev nD) : (dats m 0 c).arrAt 5 cfg0.N = result3 m c :=
  (dats m 0 c).arrAt_eq_of_cover 5 (result3 m c) (fun t _ => flushed_eq m c t) covered

/-! ## The program's result -/

/-- The result: the attention array, reshaped to the image's shape. -/
abbrev result (c : Dev nD) : Buf (Elt Ideal) ((c : Thread nD τ).loc main_v13) :=
  shapeCast S16x1024x32x32 (result3 m c) shapeCasts_S16x1024x1024_S16x1024x32x32

/-- The host line after the region reshapes the kernel's output array. -/
theorem tail_eq (c : Dev nD) :
    Pipeline.afterTail₀ cfgs (dats m) 0 (V0 m) [hostOps1] c main_v13 = result m c := by
  unfold Pipeline.afterTail₀
  show StableHlo.after hostOps1 _ (Proc.devRef .tc main_v13) = _
  after_results
  refine congrArg (fun x => shapeCast S16x1024x32x32 x shapeCasts_S16x1024x1024_S16x1024x32x32) ?_
  exact (Pipeline.withArrays_arr spec0 launch0.win.arr_inj c _ _ 5).trans (final m c)

/-- The run, read: the result at the reshaped attention array, the arguments unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v13 (Pipeline.mem_restRefs_of main_v13 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelValue

end
-- ==== Proof.SoftmaxLaw.lean ====
/-
  The algebra of the attention row, over the extended reals.

  For ONE query row the fused kernel computes
      q o = ∑ d, x d * (wq o d * s)        (the softmax scale folded into the query weight)
      a j = ∑ o, q o * k j o
      m   = max over j of a j,   p j = exp (a j - m),   l = ∑ j, p j
      out = (∑ j, p j * v j) / l            (the normalisation applied once, to the row's weighted sum)
  while the reference computes
      q' o = ∑ d, x d * wq o d,   a' j = (∑ o, q' o * k j o) * s
      p' j = exp (a' j - m'),     l' = ∑ j, p' j
      out' = ∑ j, (p' j / l') * v j          (each weight normalised first).
  Both are the same number when every entry is a REAL number: the scale leaves the two nested sums by
  distributivity, and the division by the row's positive sum of exponentials commutes with the weighted sum.
  Over the extended reals neither step holds at the infinities, so every lemma here carries the hypothesis that
  its entries are real (`IsReal`), and shows its result real again.
-/
import Idealize.ShloMosaic.PureOps.Ideal
import Mathlib.Data.Finset.Fold

noncomputable section

open scoped BigOperators
open Idealize.ShloMosaic

namespace Cert.SoftmaxLaw

/-- An extended real that is a real number. -/
def IsReal (a : EReal) : Prop := ∃ r : ℝ, a = (r : EReal)

theorem isReal_coe (r : ℝ) : IsReal (r : EReal) := ⟨r, rfl⟩

theorem isReal_of_ne {a : EReal} (ht : a ≠ ⊤) (hb : a ≠ ⊥) : IsReal a :=
  ⟨a.toReal, (EReal.coe_toReal ht hb).symm⟩

theorem IsReal.ne_top {a : EReal} (h : IsReal a) : a ≠ ⊤ := by
  obtain ⟨r, rfl⟩ := h; exact EReal.coe_ne_top r

theorem IsReal.ne_bot {a : EReal} (h : IsReal a) : a ≠ ⊥ := by
  obtain ⟨r, rfl⟩ := h; exact EReal.coe_ne_bot r

theorem IsReal.mul {a b : EReal} (ha : IsReal a) (hb : IsReal b) : IsReal (a * b) := by
  obtain ⟨r, rfl⟩ := ha; obtain ⟨t, rfl⟩ := hb; exact ⟨r * t, (EReal.coe_mul r t).symm⟩

theorem IsReal.add {a b : EReal} (ha : IsReal a) (hb : IsReal b) : IsReal (a + b) := by
  obtain ⟨r, rfl⟩ := ha; obtain ⟨t, rfl⟩ := hb; exact ⟨r + t, (EReal.coe_add r t).symm⟩

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} [Fintype ι] {f : ι → EReal} (h : ∀ i, IsReal (f i)) : IsReal (∑ i, f i) := by
  choose g hg using h
  exact ⟨∑ i, g i, by rw [coe_sum]; exact Finset.sum_congr rfl fun i _ => hg i⟩

/-- A row of real products has a real sum: one entry of a matrix product of real matrices. -/
theorem IsReal.dot {ι : Type*} [Fintype ι] {f g : ι → EReal} (hf : ∀ i, IsReal (f i)) (hg : ∀ i, IsReal (g i)) :
    IsReal (∑ i, f i * g i) := IsReal.sum fun i => (hf i).mul (hg i)

/-! ## The scale leaves the two nested sums -/

/-- The kernel's score, with the scale inside the query projection, is the reference's, scaled last. -/
theorem score_eq {D O : Type*} [Fintype D] [Fintype O] (x : D → EReal) (wq : O → D → EReal) (k : O → EReal) (s : EReal)
    (hx : ∀ d, IsReal (x d)) (hw : ∀ o d, IsReal (wq o d)) (hk : ∀ o, IsReal (k o)) (hs : IsReal s) :
    ∑ o, (∑ d, x d * (wq o d * s)) * k o = (∑ o, (∑ d, x d * wq o d) * k o) * s := by
  choose xr hx using hx
  choose wr hw using hw
  choose kr hk using hk
  obtain ⟨sr, rfl⟩ := hs
  simp only [hx, hw, hk, ← EReal.coe_mul, ← coe_sum]
  refine congrArg _ ?_
  rw [Finset.sum_mul]
  refine Finset.sum_congr rfl fun o _ => ?_
  rw [Finset.sum_mul, Finset.sum_mul, Finset.sum_mul]
  exact Finset.sum_congr rfl fun d _ => by ring

/-! ## The row maximum of real scores is real -/

/-- The running maximum from `⊥` over a nonempty finite family of reals is a real. -/
theorem isReal_fold_max {J : Type*} [Fintype J] [Nonempty J] (a : J → EReal) (ha : ∀ j, IsReal (a j)) :
    IsReal ((Finset.univ : Finset J).fold max ⊥ a) := by
  refine isReal_of_ne (ne_of_lt ?_) (ne_of_gt ?_)
  · exact (Finset.fold_max_lt _).mpr ⟨bot_lt_top, fun j _ => lt_top_iff_ne_top.mpr (ha j).ne_top⟩
  · obtain ⟨j⟩ := ‹Nonempty J›
    exact (Finset.lt_fold_max _).mpr (Or.inr ⟨j, Finset.mem_univ j, bot_lt_iff_ne_bot.mpr (ha j).ne_bot⟩)

/-- Taking the maximum with `⊥` once more changes nothing. -/
theorem max_bot_left (a : EReal) : max ⊥ a = a := max_eq_right bot_le

/-! ## The exponentials of real numbers: real, positive, with a nonzero real sum -/

theorem isReal_exp_sub {a m : EReal} (ha : IsReal a) (hm : IsReal m) : IsReal (Ideal.exp (a - m)) := by
  obtain ⟨r, rfl⟩ := ha; obtain ⟨t, rfl⟩ := hm
  exact ⟨Real.exp (r - t), by rw [← EReal.coe_sub, Ideal.exp_coe]⟩

theorem exp_sub_pos {a m : EReal} (ha : IsReal a) (hm : IsReal m) : 0 < Ideal.exp (a - m) := by
  obtain ⟨r, rfl⟩ := ha; obtain ⟨t, rfl⟩ := hm
  rw [← EReal.coe_sub, Ideal.exp_coe]
  exact EReal.coe_pos.mpr (Real.exp_pos _)

/-- A nonempty finite sum of positive reals is not zero. -/
theorem sum_ne_zero_of_pos {J : Type*} [Fintype J] [Nonempty J] (p : J → EReal) (hp : ∀ j, IsReal (p j))
    (hpos : ∀ j, 0 < p j) : ∑ j, p j ≠ 0 := by
  choose pr hpr using hp
  have hpos' : ∀ j, 0 < pr j := fun j => EReal.coe_pos.mp (by rw [← hpr j]; exact hpos j)
  simp only [hpr, ← coe_sum]
  intro h
  have h0 : (∑ j, pr j) = 0 := by exact_mod_cast h
  exact absurd h0 (ne_of_gt (Finset.sum_pos (fun j _ => hpos' j) Finset.univ_nonempty))

/-! ## The normalisation commutes with the weighted sum -/

/-- Dividing the weighted sum once by a nonzero real is weighting by the divided weights. -/
theorem div_sum_eq {J : Type*} [Fintype J] (p v : J → EReal) (l : EReal) (hp : ∀ j, IsReal (p j)) (hv : ∀ j, IsReal (v j))
    (hl : IsReal l) (hl0 : l ≠ 0) :
    Ideal.div (∑ j, p j * v j) l = ∑ j, Ideal.div (p j) l * v j := by
  choose pr hp using hp
  choose vr hv using hv
  obtain ⟨lr, rfl⟩ := hl
  have hlr : lr ≠ 0 := fun h => hl0 (by rw [h]; rfl)
  simp only [Ideal.div_coe hlr, hp, hv, ← EReal.coe_mul, ← coe_sum]
  refine congrArg _ ?_
  rw [Finset.sum_mul]
  exact Finset.sum_congr rfl fun j _ => by ring

end Cert.SoftmaxLaw

end
-- ==== Proof.RefAttention.lean ====
/-
  The reference program's attention, read at an index, is the specification's function when every input entry is
  a real number.

  Reading the reference one operation at a time at the index (b, r, o) gives
      a j = (∑ o', (∑ d, x (b, r, d) * wq (o', d)) * key b j o') * scale         (the scaled score)
      m   = max (-∞) (max over j of a j, taken from -∞)
      p j = exp (a j - m),   l = 0 + ∑ j, p j
      out = ∑ j, (p j / l) * value b j o
  and the specification is  (∑ j, exp (a' j - m') * value b j o) / (∑ j, exp (a' j - m'))  with the scale inside the
  query projection.  For real entries the two scores agree (the scale leaves the two nested sums), the maximum of
  real scores is real, the exponentials are positive reals with a real nonzero sum, and dividing each weight is
  dividing the weighted sum once.
-/
import proofs.«427656_j51634096832973_3_alg».proof.Proof.Gen.ReferenceIdeal.Read
import proofs.«427656_j51634096832973_3_alg».proof.Proof.AttentionSpec
import proofs.«427656_j51634096832973_3_alg».proof.Proof.SoftmaxLaw
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.RefAttention

open Cert.AttentionSpec Cert.SoftmaxLaw Cert.ReferenceIdeal Cert.ReferenceIdeal.Read
open Idealize.ShloMosaic Idealize.ShloMosaic.ValueIdx

/-! ## The two constant words -/

/-- The word the row maximum starts from is the bottom of the extended reals. -/
theorem negInf_eq_bot : negInf = ⊥ := by
  simp [negInf, Ideal.ofBits, Ideal.ieee]

/-- The softmax scale is the real number 1/32. -/
theorem scale_eq : scale = (((1 : ℝ) / 32 : ℝ) : EReal) := by
  simp [scale, Ideal.ofBits, Ideal.ieee, -EReal.coe_mul]; norm_num

theorem isReal_scale : IsReal scale := ⟨_, scale_eq⟩

/-! ## The projections, read at coordinates -/

section
variable (x0 x1 : FVec Ideal S16x1024x32x32 .f32) (x2 : FVec Ideal S1024x1024 .f32) (x3 : FVec Ideal S2048x1024 .f32)

/-- The query projection before the scale: row (b, r) of the first image against row k of the query weight. -/
theorem v2_at (b : Fin 16) (r k : Fin 1024) :
    val_main_v2 (F := Ideal) x0 x2 (ix3 b r k)
      = ∑ d : Fin 1024, val_main_v0 (F := Ideal) x0 (ix3 b r d) * x2 (ix2 k d) := by
  rw [val_main_v2_apply]
  refine Finset.sum_congr rfl fun d _ => ?_
  have el : lidx_main_v2 (ix3 b r k) d = ix3 b r d :=
    funext fun a => Fin.ext (by match a with | ⟨0, _⟩ => rfl | ⟨1, _⟩ => rfl | ⟨2, _⟩ => rfl)
  have er : ridx_main_v2 (ix3 b r k) d = ix2 k d :=
    funext fun a => Fin.ext (by match a with | ⟨0, _⟩ => rfl | ⟨1, _⟩ => rfl)
  rw [el, er]

/-- The stacked key and value projection: row (b, j) of the second image against row o of the stacked weight. -/
theorem v3_at (b : Fin 16) (j : Fin 1024) (o : Fin 2048) :
    val_main_v3 (F := Ideal) x1 x3 (ix3 b j o)
      = ∑ d : Fin 1024, val_main_v1 (F := Ideal) x1 (ix3 b j d) * x3 (ix2 o d) := by
  rw [val_main_v3_apply]
  refine Finset.sum_congr rfl fun d _ => ?_
  have el : lidx_main_v3 (ix3 b j o) d = ix3 b j d :=
    funext fun a => Fin.ext (by match a with | ⟨0, _⟩ => rfl | ⟨1, _⟩ => rfl | ⟨2, _⟩ => rfl)
  have er : ridx_main_v3 (ix3 b j o) d = ix2 o d :=
    funext fun a => Fin.ext (by match a with | ⟨0, _⟩ => rfl | ⟨1, _⟩ => rfl)
  rw [el, er]

/-- The first half of the stacked projection is the specification's key. -/
theorem v4_at (b : Fin 16) (j k : Fin 1024) :
    val_main_v4 (F := Ideal) x1 x3 (ix3 b j k) = key (val_main_v1 (F := Ideal) x1) x3 b j k := by
  rw [val_main_v4_apply]
  have e : idx_main_v4 (ix3 b j k) = ix3 b j (lo k) :=
    funext fun a => Fin.ext (by match a with | ⟨0, _⟩ => rfl | ⟨1, _⟩ => rfl | ⟨2, _⟩ => rfl)
  rw [e, v3_at]
  rfl

/-- The second half of the stacked projection is the specification's value. -/
theorem v5_at (b : Fin 16) (j o : Fin 1024) :
    val_main_v5 (F := Ideal) x1 x3 (ix3 b j o) = value (val_main_v1 (F := Ideal) x1) x3 b j o := by
  rw [val_main_v5_apply]
  have e : idx_main_v5 (ix3 b j o) = ix3 b j (hi o) :=
    funext fun a => Fin.ext (by match a with | ⟨0, _⟩ => rfl | ⟨1, _⟩ => rfl | ⟨2, _⟩ => rfl)
  rw [e, v3_at]
  rfl

end

section
variable (x0 x1 : FVec Ideal S16x1024x32x32 .f32) (x2 : FVec Ideal S1024x1024 .f32) (x3 : FVec Ideal S2048x1024 .f32)

/-- The score before the scale: the query row against the key row. -/
theorem v6_at (b : Fin 16) (r j : Fin 1024) :
    val_main_v6 (F := Ideal) x0 x1 x2 x3 (ix3 b r j)
      = ∑ o : Fin 1024, (∑ d : Fin 1024, val_main_v0 (F := Ideal) x0 (ix3 b r d) * x2 (ix2 o d))
          * key (val_main_v1 (F := Ideal) x1) x3 b j o := by
  rw [val_main_v6_apply]
  refine Finset.sum_congr rfl fun o _ => ?_
  have el : lidx_main_v6 (ix3 b r j) o = ix3 b r o :=
    funext fun a => Fin.ext (by match a with | ⟨0, _⟩ => rfl | ⟨1, _⟩ => rfl | ⟨2, _⟩ => rfl)
  have er : ridx_main_v6 (ix3 b r j) o = ix3 b j o :=
    funext fun a => Fin.ext (by match a with | ⟨0, _⟩ => rfl | ⟨1, _⟩ => rfl | ⟨2, _⟩ => rfl)
  rw [el, er, v2_at, v4_at]

/-- The broadcast scale word, anywhere. -/
theorem v7_at (i : S16x1024x1024.Idx) : val_main_v7 (F := Ideal) i = scale := by
  rw [val_main_v7_apply, val_main_cst_apply, Ideal.ofBits_def]
  rfl

/-- The scaled score, the scale applied last. -/
theorem v8_at (b : Fin 16) (r j : Fin 1024) :
    val_main_v8 (F := Ideal) x0 x1 x2 x3 (ix3 b r j)
      = (∑ o : Fin 1024, (∑ d : Fin 1024, val_main_v0 (F := Ideal) x0 (ix3 b r d) * x2 (ix2 o d))
          * key (val_main_v1 (F := Ideal) x1) x3 b j o) * scale := by
  rw [val_main_v8_apply, Ideal.mulf_def, v6_at, v7_at]

end

section
variable (x0 x1 : FVec Ideal S16x1024x32x32 .f32) (x2 : FVec Ideal S1024x1024 .f32) (x3 : FVec Ideal S2048x1024 .f32)

/-- The shapes of the row reduction, as the relation the inserted index is defined from. -/
theorem reduces_rows : S16x1024x1024.Reduces [2] S16x1024 := by decide

/-- Row (b, r) with the coordinate j put back on the reduced axis is (b, r, j). -/
theorem lift_rows (b : Fin 16) (r : Fin 1024) (j : Fin (S16x1024x1024.size 2)) :
    reduces_rows.lift (ix2 b r) j = ix3 b r (⟨j.val, j.isLt⟩ : Fin 1024) :=
  funext fun a => Fin.ext (by match a with | ⟨0, _⟩ => rfl | ⟨1, _⟩ => rfl | ⟨2, _⟩ => rfl)

/-- The row maximum: the running maximum from the starting word over the row's 1024 scaled scores. -/
theorem v9_at (b : Fin 16) (r : Fin 1024) :
    val_main_v9 (F := Ideal) x0 x1 x2 x3 (ix2 b r)
      = (Finset.univ : Finset (Fin 1024)).fold max negInf
          (fun j => val_main_v8 (F := Ideal) x0 x1 x2 x3 (ix3 b r j)) := by
  unfold val_main_v9
  generalize val_main_v8 (F := Ideal) x0 x1 x2 x3 = y
  refine (Host.reduce_eq_fold_single (FloatOps.maximumf (F := Ideal) (φ := .f32)) y (val_main_cst_0 (F := Ideal))
    Gen.reducesTo_S16x1024x1024_S16x1024_d2 reduces_rows Gen.h_S_ (ix2 b r)).trans ?_
  have hf : (y ∘ reduces_rows.lift (ix2 b r)) = fun j : Fin 1024 => y (ix3 b r j) :=
    funext fun j => congrArg y (lift_rows b r j)
  exact congrArg (fun f => Finset.fold max negInf f (Finset.univ : Finset (Fin 1024))) hf

/-- The maximum with the broadcast starting word once more changes nothing. -/
theorem v11_at (b : Fin 16) (r : Fin 1024) :
    val_main_v11 (F := Ideal) x0 x1 x2 x3 (ix2 b r)
      = (Finset.univ : Finset (Fin 1024)).fold max negInf
          (fun j => val_main_v8 (F := Ideal) x0 x1 x2 x3 (ix3 b r j)) := by
  rw [val_main_v11_apply, Ideal.maximumf_def, val_main_v10_apply, val_main_cst_1_apply, Ideal.ofBits_def, v9_at]
  exact (congrArg (fun t => max t _) negInf_eq_bot).trans (Cert.SoftmaxLaw.max_bot_left _)

/-- The row maximum broadcast back along the row. -/
theorem v13_at (b : Fin 16) (r j : Fin 1024) :
    val_main_v13 (F := Ideal) x0 x1 x2 x3 (ix3 b r j) = val_main_v11 (F := Ideal) x0 x1 x2 x3 (ix2 b r) := by
  rw [val_main_v13_apply, val_main_v12_apply]
  exact congrArg _ (funext fun a => Fin.ext (by match a with | ⟨0, _⟩ => rfl | ⟨1, _⟩ => rfl))

/-- The exponential of the score less the row maximum. -/
theorem v15_at (b : Fin 16) (r j : Fin 1024) :
    val_main_v15 (F := Ideal) x0 x1 x2 x3 (ix3 b r j)
      = Ideal.exp (val_main_v8 (F := Ideal) x0 x1 x2 x3 (ix3 b r j)
          - (Finset.univ : Finset (Fin 1024)).fold max negInf
              (fun j' => val_main_v8 (F := Ideal) x0 x1 x2 x3 (ix3 b r j'))) := by
  rw [val_main_v15_apply, Ideal.hostUnary_exp_def, val_main_v14_apply, Ideal.subf_def, v13_at, v11_at]

/-- The row's sum of exponentials, from the zero word. -/
theorem v16_at (b : Fin 16) (r : Fin 1024) :
    val_main_v16 (F := Ideal) x0 x1 x2 x3 (ix2 b r)
      = ∑ j : Fin 1024, val_main_v15 (F := Ideal) x0 x1 x2 x3 (ix3 b r j) := by
  rw [val_main_v16_apply, val_main_cst_2_apply, Ideal.ofBits_def, Ideal.ofBits_zero_f32, zero_add]
  refine Finset.sum_congr rfl fun j _ => ?_
  exact congrArg _ (funext fun a => Fin.ext (by match a with | ⟨0, _⟩ => rfl | ⟨1, _⟩ => rfl | ⟨2, _⟩ => rfl))

/-- The row's sum broadcast back along the row. -/
theorem v18_at (b : Fin 16) (r j : Fin 1024) :
    val_main_v18 (F := Ideal) x0 x1 x2 x3 (ix3 b r j) = val_main_v16 (F := Ideal) x0 x1 x2 x3 (ix2 b r) := by
  rw [val_main_v18_apply, val_main_v17_apply]
  exact congrArg _ (funext fun a => Fin.ext (by match a with | ⟨0, _⟩ => rfl | ⟨1, _⟩ => rfl))

/-- The output: each weight divided by the row's sum, against the value column. -/
theorem v20_at (b : Fin 16) (r o : Fin 1024) :
    val_main_v20 (F := Ideal) x0 x1 x2 x3 (ix3 b r o)
      = ∑ j : Fin 1024, Ideal.div (val_main_v15 (F := Ideal) x0 x1 x2 x3 (ix3 b r j))
            (∑ j' : Fin 1024, val_main_v15 (F := Ideal) x0 x1 x2 x3 (ix3 b r j'))
          * value (val_main_v1 (F := Ideal) x1) x3 b j o := by
  rw [val_main_v20_apply]
  refine Finset.sum_congr rfl fun j _ => ?_
  have el : lidx_main_v20 (ix3 b r o) j = ix3 b r j :=
    funext fun a => Fin.ext (by match a with | ⟨0, _⟩ => rfl | ⟨1, _⟩ => rfl | ⟨2, _⟩ => rfl)
  have er : ridx_main_v20 (ix3 b r o) j = ix3 b j o :=
    funext fun a => Fin.ext (by match a with | ⟨0, _⟩ => rfl | ⟨1, _⟩ => rfl | ⟨2, _⟩ => rfl)
  rw [el, er, val_main_v19_apply, Ideal.hostDivf_def, v18_at, v16_at, v5_at]

end

/-! ## One row, over variables -/

/-- One attention row of real scores and real values: dividing each weight by the row's sum of exponentials and
    then weighting the values is the specification's row, which divides the weighted sum once. -/
theorem row_eq (a v : Fin 1024 → EReal) (ha : ∀ j, IsReal (a j)) (hv : ∀ j, IsReal (v j)) :
    ∑ j : Fin 1024, Ideal.div (Ideal.exp (a j - (Finset.univ : Finset (Fin 1024)).fold max negInf a))
        (∑ j' : Fin 1024, Ideal.exp (a j' - (Finset.univ : Finset (Fin 1024)).fold max negInf a)) * v j
      = softmaxRow a v := by
  have hm : IsReal ((Finset.univ : Finset (Fin 1024)).fold max negInf a) := by
    rw [negInf_eq_bot]; exact isReal_fold_max a ha
  unfold softmaxRow
  generalize (Finset.univ : Finset (Fin 1024)).fold max negInf a = m at hm ⊢
  have hp : ∀ j, IsReal (Ideal.exp (a j - m)) := fun j => isReal_exp_sub (ha j) hm
  exact (div_sum_eq (fun j => Ideal.exp (a j - m)) v _ hp hv (IsReal.sum hp)
    (sum_ne_zero_of_pos _ hp fun j => exp_sub_pos (ha j) hm)).symm

/-! ## The reference's scores and values are real, and its score is the specification's -/

section
variable (x0 x1 : FVec Ideal S16x1024x32x32 .f32) (x2 : FVec Ideal S1024x1024 .f32) (x3 : FVec Ideal S2048x1024 .f32)

theorem isReal_v0 (h0 : ∀ i, IsReal (x0 i)) (i : S16x1024x1024.Idx) : IsReal (val_main_v0 (F := Ideal) x0 i) := by
  rw [val_main_v0_apply]; exact h0 _

theorem isReal_v1 (h1 : ∀ i, IsReal (x1 i)) (i : S16x1024x1024.Idx) : IsReal (val_main_v1 (F := Ideal) x1 i) := by
  rw [val_main_v1_apply]; exact h1 _

theorem isReal_key (h1 : ∀ i, IsReal (x1 i)) (h3 : ∀ i, IsReal (x3 i)) (b : Fin 16) (j o : Fin 1024) :
    IsReal (key (val_main_v1 (F := Ideal) x1) x3 b j o) :=
  IsReal.dot (fun _ => isReal_v1 x1 h1 _) (fun _ => h3 _)

theorem isReal_value (h1 : ∀ i, IsReal (x1 i)) (h3 : ∀ i, IsReal (x3 i)) (b : Fin 16) (j o : Fin 1024) :
    IsReal (value (val_main_v1 (F := Ideal) x1) x3 b j o) :=
  IsReal.dot (fun _ => isReal_v1 x1 h1 _) (fun _ => h3 _)

/-- The reference's scaled score is the specification's score: the scale moves inside the query projection. -/
theorem v8_eq_score (h0 : ∀ i, IsReal (x0 i)) (h1 : ∀ i, IsReal (x1 i)) (h2 : ∀ i, IsReal (x2 i)) (h3 : ∀ i, IsReal (x3 i))
    (b : Fin 16) (r j : Fin 1024) :
    val_main_v8 (F := Ideal) x0 x1 x2 x3 (ix3 b r j)
      = score (val_main_v0 (F := Ideal) x0) (val_main_v1 (F := Ideal) x1) x2 x3 b r j := by
  rw [v8_at]
  exact (score_eq (fun d => val_main_v0 (F := Ideal) x0 (ix3 b r d)) (fun o d => x2 (ix2 o d))
    (fun o => key (val_main_v1 (F := Ideal) x1) x3 b j o) scale (fun _ => isReal_v0 x0 h0 _) (fun _ _ => h2 _)
    (fun _ => isReal_key x1 x3 h1 h3 _ _ _) isReal_scale).symm

theorem isReal_v8 (h0 : ∀ i, IsReal (x0 i)) (h1 : ∀ i, IsReal (x1 i)) (h2 : ∀ i, IsReal (x2 i)) (h3 : ∀ i, IsReal (x3 i))
    (b : Fin 16) (r j : Fin 1024) : IsReal (val_main_v8 (F := Ideal) x0 x1 x2 x3 (ix3 b r j)) := by
  rw [v8_at]
  exact (IsReal.sum fun _ => (IsReal.dot (fun _ => isReal_v0 x0 h0 _) (fun _ => h2 _)).mul
    (isReal_key x1 x3 h1 h3 _ _ _)).mul isReal_scale

/-- The output row in the variables' form: the weights are the exponentials of the scaled scores less their maximum. -/
theorem v20_row (b : Fin 16) (r o : Fin 1024) :
    val_main_v20 (F := Ideal) x0 x1 x2 x3 (ix3 b r o)
      = ∑ j : Fin 1024, Ideal.div
            (Ideal.exp (val_main_v8 (F := Ideal) x0 x1 x2 x3 (ix3 b r j)
              - (Finset.univ : Finset (Fin 1024)).fold max negInf
                  (fun j' => val_main_v8 (F := Ideal) x0 x1 x2 x3 (ix3 b r j'))))
            (∑ j' : Fin 1024, Ideal.exp (val_main_v8 (F := Ideal) x0 x1 x2 x3 (ix3 b r j')
              - (Finset.univ : Finset (Fin 1024)).fold max negInf
                  (fun j'' => val_main_v8 (F := Ideal) x0 x1 x2 x3 (ix3 b r j''))))
          * value (val_main_v1 (F := Ideal) x1) x3 b j o := by
  rw [v20_at]
  simp only [v15_at]

end

/-! ## The reference's attention is the specification's -/

theorem ref_eq_attention (x0 x1 : FVec Ideal S16x1024x32x32 .f32) (x2 : FVec Ideal S1024x1024 .f32) (x3 : FVec Ideal S2048x1024 .f32)
    (h0 : ∀ i, IsReal (x0 i)) (h1 : ∀ i, IsReal (x1 i)) (h2 : ∀ i, IsReal (x2 i)) (h3 : ∀ i, IsReal (x3 i)) :
    val_main_v20 (F := Ideal) x0 x1 x2 x3
      = attention (val_main_v0 (F := Ideal) x0) (val_main_v1 (F := Ideal) x1) x2 x3 := by
  funext i
  obtain ⟨b, r, o, rfl⟩ : ∃ b r o, i = ix3 b r o := ⟨i 0, i 1, i 2, eq_ix3 i⟩
  have hs : (fun j : Fin 1024 => val_main_v8 (F := Ideal) x0 x1 x2 x3 (ix3 b r j))
      = fun j => score (val_main_v0 (F := Ideal) x0) (val_main_v1 (F := Ideal) x1) x2 x3 b r j :=
    funext fun j => v8_eq_score x0 x1 x2 x3 h0 h1 h2 h3 b r j
  rw [v20_row]
  refine (row_eq (fun j => val_main_v8 (F := Ideal) x0 x1 x2 x3 (ix3 b r j))
    (fun j => value (val_main_v1 (F := Ideal) x1) x3 b j o)
    (fun j => isReal_v8 x0 x1 x2 x3 h0 h1 h2 h3 b r j) (fun j => isReal_value x1 x3 h1 h3 b j o)).trans ?_
  rw [hs]
  rfl

end Cert.RefAttention

end
-- ==== Proof.FiniteInputs.lean ====
/-
  From the precondition to real entries.

  The precondition is the conjunction of four tests, one per input array: every entry x satisfies |x| < +∞,
  where |x| is max x (-x) over the extended reals and +∞ is the value of the word 0x7F800000. An extended real
  passes the strict comparison exactly when it is neither ⊤ nor ⊥, that is, when it is a real number. Each test
  is a reduction by `and` over all axes into a result of one index, started at 1: it is 1 only when every
  entry's comparison is 1.
-/
import proofs.«427656_j51634096832973_3_alg».proof.Proof.Gen.Pre_finite_inputs
import proofs.«427656_j51634096832973_3_alg».proof.Proof.SoftmaxLaw
import Idealize.ShloMosaic.Lib.ReduceAll
import Idealize.ShloMosaic.Lib.ValueIdx
import Idealize.ShloMosaic.PureOps.Ideal.Laws

noncomputable section

namespace Cert.FiniteInputs

open Cert.SoftmaxLaw Cert.Pre_finite_inputs Idealize.ShloMosaic

/-- The result shape of a reduction over all axes has exactly one index. -/
instance subsingleton_scalar_idx : Subsingleton S_.Idx := ⟨fun a b => funext fun d => d.elim0⟩

/-- The word 0x7F800000 denotes +∞. -/
theorem ofBits_inf : Ideal.ofBits .f32 0x7F800000#32 = (⊤ : EReal) := by simp [Ideal.ofBits, Ideal.ieee]

/-- One entry: if |x| < +∞ holds as a comparison word, x is a real number. At ⊤ the maximum of x and -x is ⊤,
    at ⊥ it is -⊥ = ⊤; neither is strictly below ⊤. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  rw [max_lt_iff] at hlt
  refine isReal_of_ne (ne_of_lt hlt.1) ?_
  intro hb
  rw [hb] at hlt
  simp at hlt

/-- An array of any shape all of whose entries pass the test |x| < +∞ (the comparison against the broadcast
    constant, reduced by `and` over all axes from 1, is 1) has real entries. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, IsReal (x i) := by
  intro i
  have h1 := Host.reduce_andi_all _ _ hr hu _ e i
  exact isReal_of_abs_lt_inf (x i) h1

theorem real_of_pre (a0 a1 : FVec Ideal S16x1024x32x32 .f32) (a2 : FVec Ideal S1024x1024 .f32) (a3 : FVec Ideal S2048x1024 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all a0 _ _ _ h0', real_of_all a1 _ _ _ h1, real_of_all a2 _ _ _ h2, real_of_all a3 _ _ _ h3⟩

end Cert.FiniteInputs

end
-- ==== Proof.lean ====
/-
  Cross attention of an image over a conditioning image, fused into one kernel, against its plain reference:
  equal results over the extended reals for finite inputs.

  Both programs flatten the two images to (batch, token, feature), project queries from the first image and keys and
  values from the second, take the softmax of the scaled scores over the keys and weight the values with it.
  They differ in two places. The kernel folds the softmax scale `1/32` into the query weight before the
  projection, where the reference scales the scores; and the kernel divides the weighted sum of the values once by
  the row's sum of exponentials, where the reference divides every weight first. Over real numbers both are
  distributivity (`SoftmaxLaw.score_eq`, `SoftmaxLaw.div_sum_eq`: the row's sum of exponentials is a positive
  real); over the extended reals they fail at the infinities, which is where the precondition, every input finite,
  is used (`FiniteInputs.real_of_pre`).

  The kernel's side (`KernelValue`): the grid is (batch, query tile); the first tile of a batch projects the batch's
  keys and values into two scratch buffers, which the second tile finds (an induction over the grid points); every
  tile writes the attention rows of its queries against those; the tiles cover the output array, which the host
  then reshapes. The reference's side (`RefAttention`): its operations read one at a time at an index. Both meet at
  `AttentionSpec.attention` of the flattened images and the two weights.
-/
import proofs.«427656_j51634096832973_3_alg».proof.Defs
import proofs.«427656_j51634096832973_3_alg».proof.Proof.Gen.Kernel
import proofs.«427656_j51634096832973_3_alg».proof.Proof.Gen.Kernel.Skeleton
import proofs.«427656_j51634096832973_3_alg».proof.Proof.Gen.Kernel.Launch
import proofs.«427656_j51634096832973_3_alg».proof.Proof.Gen.Kernel.Points
import proofs.«427656_j51634096832973_3_alg».proof.Proof.Gen.Kernel.Frame
import proofs.«427656_j51634096832973_3_alg».proof.Proof.Gen.KernelIdeal
import proofs.«427656_j51634096832973_3_alg».proof.Proof.Gen.KernelIdeal.Skeleton
import proofs.«427656_j51634096832973_3_alg».proof.Proof.Gen.KernelIdeal.Launch
import proofs.«427656_j51634096832973_3_alg».proof.Proof.Gen.KernelIdeal.Points
import proofs.«427656_j51634096832973_3_alg».proof.Proof.Gen.KernelIdeal.Frame
import proofs.«427656_j51634096832973_3_alg».proof.Proof.Gen.ReferenceIdeal
import proofs.«427656_j51634096832973_3_alg».proof.Proof.Gen.Pre_finite_inputs
import proofs.«427656_j51634096832973_3_alg».proof.Proof.Gen.ReferenceIdeal.Run
import proofs.«427656_j51634096832973_3_alg».proof.Proof.Gen.ReferenceIdeal.Read
import proofs.«427656_j51634096832973_3_alg».proof.Proof.KernelValue
import proofs.«427656_j51634096832973_3_alg».proof.Proof.RefAttention
import proofs.«427656_j51634096832973_3_alg».proof.Proof.FiniteInputs
import Idealize.ShloMosaic.Adequacy
import Idealize.ShloMosaic.Init

noncomputable section

namespace Cert.Proof

open Idealize.ShloMosaic Idealize.SL.Sem

/-- Every weakly fair execution of the kernel as printed terminates with its arguments unchanged. -/
theorem frame_kernel : Cert.frame_Kernel := fun m ρ _ => Cert.Kernel.Gen.frame m ρ

/-- The same of the kernel read over the extended reals. -/
theorem frame_kernelIdeal : Cert.frame_KernelIdeal := fun m ρ _ => Cert.KernelIdeal.Gen.frame m ρ

/-- The reference is a straight line of host operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from finite inputs, the kernel's result and the reference's are the reshaped attention
    array of the same flattened images and weights. -/
theorem algebraic : Cert.algebraic_KernelIdeal_ReferenceIdeal := by
  intro m ρ m' ρ' hpre hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3⟩ := Cert.FiniteInputs.real_of_pre _ _ _ _ (hpre c)
  rw [Cert.ReferenceIdeal.Read.val_main_v21_eq, (hagree c).1, (hagree c).2.1, (hagree c).2.2.1, (hagree c).2.2.2]
  unfold Cert.ReferenceIdeal.Read.val_main_v21
  rw [Cert.RefAttention.ref_eq_attention _ _ _ _ r0 r1 r2 r3]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
